-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000x1 : Shape := ⟨2, ![3200000, 1]⟩
abbrev S16x16 : Shape := ⟨2, ![16, 16]⟩
abbrev S16 : Shape := ⟨1, ![16]⟩
abbrev S1x16 : Shape := ⟨2, ![1, 16]⟩
abbrev S32x16 : Shape := ⟨2, ![32, 16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S32x16 : S_.BroadcastsInDim S32x16 (![] : Fin 0 → Fin S32x16.rank)
  reducesTo_S32x16_S_d0_1 : S32x16.ReducesTo [0, 1] S_

variable [Facts]

def fn_part4 {F : FTy → Type} [FloatOps F] (main_arg15 : FVec F S16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg12 : FVec F S32x16 .f32) (main_arg13 : FVec F S16 .f32) (main_arg14 : FVec F S16x16 .f32) (main_arg15 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_v63 main_v67

def fn_part2 {F : FTy → Type} [FloatOps F] (main_arg8 : FVec F S16x16 .f32) (main_arg9 : FVec F S16 .f32) (main_arg10 : FVec F S16x16 .f32) (main_arg11 : FVec F S16 .f32) (main_arg12 : FVec F S32x16 .f32) (main_arg13 : FVec F S16 .f32) (main_arg14 : FVec F S16x16 .f32) (main_arg15 : FVec F S16 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_v48 main_v49 main_v50

def fn_part1 {F : FTy → Type} [FloatOps F] (main_arg5 : FVec F S16 .f32) (main_arg6 : FVec F S1x16 .f32) (main_arg7 : FVec F S16x16 .f32) (main_arg8 : FVec F S16x16 .f32) (main_arg9 : FVec F S16 .f32) (main_arg10 : FVec F S16x16 .f32) (main_arg11 : FVec F S16 .f32) (main_arg12 : FVec F S32x16 .f32) (main_arg13 : FVec F S16 .f32) (main_arg14 : FVec F S16x16 .f32) (main_arg15 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x16 .f32) (main_arg1 : IVec S2x3200000 32) (main_arg2 : FVec F S3200000x1 .f32) (main_arg3 : FVec F S100000x16 .f32) (main_arg4 : FVec F S16x16 .f32) (main_arg5 : FVec F S16 .f32) (main_arg6 : FVec F S1x16 .f32) (main_arg7 : FVec F S16x16 .f32) (main_arg8 : FVec F S16x16 .f32) (main_arg9 : FVec F S16 .f32) (main_arg10 : FVec F S16x16 .f32) (main_arg11 : FVec F S16 .f32) (main_arg12 : FVec F S32x16 .f32) (main_arg13 : FVec F S16 .f32) (main_arg14 : FVec F S16x16 .f32) (main_arg15 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S100000x16 .f32 := Host.absf main_arg3
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x16 : Shape := ⟨2, ![100000, 16]⟩
abbrev S2x3200000 : Shape := ⟨2, ![2, 3200000]⟩
abbrev S3200000x1 : Shape := ⟨2, ![3200000, 1]⟩
abbrev S16x16 : Shape := ⟨2, ![16, 16]⟩
abbrev S16 : Shape := ⟨1, ![16]⟩
abbrev S1x16 : Shape := ⟨2, ![1, 16]⟩
abbrev S32x16 : Shape := ⟨2, ![32, 16]⟩
abbrev S1x3200000 : Shape := ⟨2, ![1, 3200000]⟩
abbrev S3200000 : Shape := ⟨1, ![3200000]⟩
abbrev S_ : Shape := ⟨0, ![]⟩
abbrev S3200000x16 : Shape := ⟨2, ![3200000, 16]⟩
abbrev S3200000x33 : Shape := ⟨2, ![3200000, 33]⟩
abbrev S3200x33 : Shape := ⟨2, ![3200, 33]⟩
abbrev S3200x16 : Shape := ⟨2, ![3200, 16]⟩
abbrev S3200x1 : Shape := ⟨2, ![3200, 1]⟩
abbrev S2000x16 : Shape := ⟨2, ![2000, 16]⟩
abbrev S2000x32 : Shape := ⟨2, ![2000, 32]⟩

abbrev nBuf : Space → Nat
  | .hbm => 50
  | .vmem => 22
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000x1, .f32⟩
  | .hbm, ⟨3, _⟩ => ⟨S100000x16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S32x16, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S3200000x33, .f32⟩
  | .hbm, ⟨39, _⟩ => ⟨S1x16, .f32⟩
  | .hbm, ⟨40, _⟩ => ⟨S1x16, .f32⟩
  | .hbm, ⟨41, _⟩ => ⟨S3200000x16, .f32⟩
  | .hbm, ⟨42, _⟩ => ⟨S_, .f32⟩
  | .hbm, ⟨43, _⟩ => ⟨S100000x16, .f32⟩
  | .hbm, ⟨44, _⟩ => ⟨S3200000x1, .i32⟩
  | .hbm, ⟨45, _⟩ => ⟨S100000x16, .f32⟩
  | .hbm, ⟨46, _⟩ => ⟨S1x16, .f32⟩
  | .hbm, ⟨47, _⟩ => ⟨S1x16, .f32⟩
  | .hbm, ⟨48, _⟩ => ⟨S1x16, .f32⟩
  | .hbm, ⟨49, _⟩ => ⟨S100000x16, .f32⟩
  | .local _ .vmem, ⟨0, _⟩ => ⟨S3200x33, .f32⟩
  | .local _ .vmem, ⟨1, _⟩ => ⟨S3200x33, .f32⟩
  | .local _ .vmem, ⟨2, _⟩ => ⟨S16x16, .f32⟩
  | .local _ .vmem, ⟨3, _⟩ => ⟨S1x16, .f32⟩
  | .local _ .vmem, ⟨4, _⟩ => ⟨S1x16, .f32⟩
  | .local _ .vmem, ⟨5, _⟩ => ⟨S16x16, .f32⟩
  | .local _ .vmem, ⟨6, _⟩ => ⟨S16x16, .f32⟩
  | .local _ .vmem, ⟨7, _⟩ => ⟨S1x16, .f32⟩
  | .local _ .vmem, ⟨8, _⟩ => ⟨S3200x16, .f32⟩
  | .local _ .vmem, ⟨9, _⟩ => ⟨S3200x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S16x16, .f32⟩
  | .local _ .vmem, ⟨15, _⟩ => ⟨S1x16, .f32⟩
  | .local _ .vmem, ⟨16, _⟩ => ⟨S32x16, .f32⟩
  | .local _ .vmem, ⟨17, _⟩ => ⟨S1x16, .f32⟩
  | .local _ .vmem, ⟨18, _⟩ => ⟨S16x16, .f32⟩
  | .local _ .vmem, ⟨19, _⟩ => ⟨S1x16, .f32⟩
  | .local _ .vmem, ⟨20, _⟩ => ⟨S2000x16, .f32⟩
  | .local _ .vmem, ⟨21, _⟩ => ⟨S2000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x1_S3200000x33_d1 : Shape.Concatenates [S3200000x16, S3200000x16, S3200000x1] S3200000x33 1
  shapeCasts_S16_S1x16 : S16.ShapeCasts S1x16
  inb_S3200x33_S3200x33_0_0 : ∀ a, (![0, 0] : Fin 2 → Nat) a + S3200x33.size a ≤ S3200x33.size a
  h_S3200x33 : 0 < S3200x33.numel
  shapeCasts_S3200x33_S3200x33 : S3200x33.ShapeCasts S3200x33
  slices_S3200x33_o0_0_S3200x16 : S3200x33.Slices ![0, 0] S3200x16
  slices_S3200x33_o0_16_S3200x16 : S3200x33.Slices ![0, 16] S3200x16
  slices_S3200x33_o0_32_S3200x1 : S3200x33.Slices ![0, 32] S3200x1
  inb_S16x16_S16x16_0_0 : ∀ a, (![0, 0] : Fin 2 → Nat) a + S16x16.size a ≤ S16x16.size a
  h_S16x16 : 0 < S16x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S3200x16 : S1x16.Broadcasts S3200x16
  inb_S3200x16_S3200x16_0_0 : ∀ a, (![0, 0] : Fin 2 → Nat) a + S3200x16.size a ≤ S3200x16.size a
  h_S3200x16 : 0 < S3200x16.numel
  bcast_S_S100000x16 : S_.BroadcastsInDim S100000x16 (![] : Fin 0 → Fin S100000x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S32x16_S32x16_0_0 : ∀ a, (![0, 0] : Fin 2 → Nat) a + S32x16.size a ≤ S32x16.size a
  h_S32x16 : 0 < S32x16.numel
  broadcasts_S1x16_S2000x16 : S1x16.Broadcasts S2000x16
  concatenates_S2000x16_S2000x16_S2000x32_d1 : Shape.Concatenates [S2000x16, S2000x16] S2000x32 1
  gather_S100000x16_S3200000x1_S3200000x16_1_0_n_n_0_1_116_wf : GatherDims.WF S100000x16 S3200000x1 S3200000x16 [1] [0] [] [0] [] 1 ![1, 16]
  dot_S3200x16_S16x16_S3200x16_1_0_0_1_n_n_wf : DotDims.WF S3200x16 S16x16 S3200x16 [1] [0] [0] [1] [] []
  dot_S3200x1_S1x16_S3200x16_1_0_0_1_n_n_wf : DotDims.WF S3200x1 S1x16 S3200x16 [1] [0] [0] [1] [] []
  scatter_S100000x16_S3200000x1_S3200000x16_1_0_0_1_wf : ScatterDims.WF S100000x16 S3200000x1 S3200000x16 [1] [0] [0] 1
  dot_S2000x16_S16x16_S2000x16_1_0_0_1_n_n_wf : DotDims.WF S2000x16 S16x16 S2000x16 [1] [0] [0] [1] [] []
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x33.size a ≤ S3200000x33.size a
  hwx0_0 : ∀ i : grid0.Coords, EltTy.bits .f32 = 32 ∨ (Rect.block (s := S3200000x33) S3200x33.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x16.size a ≤ S3200000x16.size a
  hwx0_7 : ∀ i : grid0.Coords, EltTy.bits .f32 = 32 ∨ (Rect.block (s := S3200000x16) S3200x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x16.size a ≤ S16x16.size a
  hwx1_6 : ∀ i : grid1.Coords, EltTy.bits .f32 = 32 ∨ (Rect.block (s := S16x16) S16x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x16.size a ≤ S100000x16.size a
  hwx1_8 : ∀ i : grid1.Coords, EltTy.bits .f32 = 32 ∨ (Rect.block (s := S100000x16) S2000x16.size (cc1_transform_8 i) (hinb1_8 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200x16_S16x16_S3200x16_1_0_0_1_n_n : DotDims S3200x16 S16x16 S3200x16 where
  lhsContracting := [1]
  rhsContracting := [0]
  lhsNonContracting := [0]
  rhsNonContracting := [1]
  lhsBatch := []
  rhsBatch := []
  wf := dot_S3200x16_S16x16_S3200x16_1_0_0_1_n_n_wf
def dot_S3200x1_S1x16_S3200x16_1_0_0_1_n_n : DotDims S3200x1 S1x16 S3200x16 where
  lhsContracting := [1]
  rhsContracting := [0]
  lhsNonContracting := [0]
  rhsNonContracting := [1]
  lhsBatch := []
  rhsBatch := []
  wf := dot_S3200x1_S1x16_S3200x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_v18) S3200x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S3200x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S16x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S2000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000x1 : Shape := ⟨2, ![3200000, 1]⟩
abbrev S16x16 : Shape := ⟨2, ![16, 16]⟩
abbrev S16 : Shape := ⟨1, ![16]⟩
abbrev S1x16 : Shape := ⟨2, ![1, 16]⟩
abbrev S32x16 : Shape := ⟨2, ![32, 16]⟩
abbrev S1x3200000 : Shape := ⟨2, ![1, 3200000]⟩
abbrev S3200000 : Shape := ⟨1, ![3200000]⟩
abbrev S_ : Shape := ⟨0, ![]⟩
abbrev S3200000x16 : Shape := ⟨2, ![3200000, 16]⟩
abbrev S100000x32 : Shape := ⟨2, ![100000, 32]⟩

abbrev nBuf : Space → Nat
  | .hbm => 76
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000x1, .f32⟩
  | .hbm, ⟨3, _⟩ => ⟨S100000x16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S32x16, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S3200000x16, .f32⟩
  | .hbm, ⟨30, _⟩ => ⟨S1x16, .f32⟩
  | .hbm, ⟨31, _⟩ => ⟨S3200000x16, .f32⟩
  | .hbm, ⟨32, _⟩ => ⟨S3200000x16, .f32⟩
  | .hbm, ⟨33, _⟩ => ⟨S3200000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S3200000x16, .f32⟩
  | .hbm, ⟨44, _⟩ => ⟨S3200000x16, .f32⟩
  | .hbm, ⟨45, _⟩ => ⟨S3200000x16, .f32⟩
  | .hbm, ⟨46, _⟩ => ⟨S_, .f32⟩
  | .hbm, ⟨47, _⟩ => ⟨S3200000x16, .f32⟩
  | .hbm, ⟨48, _⟩ => ⟨S3200000x16, .f32⟩
  | .hbm, ⟨49, _⟩ => ⟨S3200000x16, .f32⟩
  | .hbm, ⟨50, _⟩ => ⟨S1x16, .f32⟩
  | .hbm, ⟨51, _⟩ => ⟨S3200000x16, .f32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S_, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S100000x32, .f32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call0_cst : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_cst : Ref sig .tc := ⟨.hbm, 69, rfl⟩
abbrev main_call2_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S_S100000x16 : S_.BroadcastsInDim S100000x16 (![] : Fin 0 → Fin S100000x16.rank)
  bcast_S1x16_S100000x16_0_1 : S1x16.BroadcastsInDim S100000x16 (![0, 1] : Fin 2 → Fin S100000x16.rank)
  concatenates_S100000x16_S100000x16_S100000x32_d1 : Shape.Concatenates [S100000x16, S100000x16] S100000x32 1
  gather_S100000x16_S3200000x1_S3200000x16_1_0_n_n_0_1_116_wf : GatherDims.WF S100000x16 S3200000x1 S3200000x16 [1] [0] [] [0] [] 1 ![1, 16]
  dot_S3200000x16_S16x16_S3200000x16_1_0_0_1_n_n_wf : DotDims.WF S3200000x16 S16x16 S3200000x16 [1] [0] [0] [1] [] []
  dot_S3200000x1_S1x16_S3200000x16_1_0_0_1_n_n_wf : DotDims.WF S3200000x1 S1x16 S3200000x16 [1] [0] [0] [1] [] []
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x32_S32x16_S100000x16_1_0_0_1_n_n_wf : DotDims.WF S100000x32 S32x16 S100000x16 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf
def dot_S3200000x1_S1x16_S3200000x16_1_0_0_1_n_n : DotDims S3200000x1 S1x16 S3200000x16 where
  lhsContracting := [1]
  rhsContracting := [0]
  lhsNonContracting := [0]
  rhsNonContracting := [1]
  lhsBatch := []
  rhsBatch := []
  wf := dot_S3200000x1_S1x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KI.Region0.lean ====
/-
  The first pallas_call (the per-edge message map) as a pipeline over its 1000 grid points, at the buffer contents
  `V` the region is entered with: each window's block at a point; what the body leaves in the output window's
  staging buffer as a function of the seven input blocks (its one store, the whole [3200,16] block, of the body's
  arithmetic `k0_pay1`); the body's run on whole staging buffers; the pipeline's proof data (every input window keeps
  its block, the output window holds that function of them); and the body obligation at every grid point.
-/
import proofs.«178704_j60610578481378_1_alg».proof.Proof.Gen.KernelIdeal.Launch
import proofs.«178704_j60610578481378_1_alg».proof.Proof.Gen.KernelIdeal.Skeleton
import proofs.«178704_j60610578481378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where it is not
    fetched its block index has not moved. One statement per input window (0: the rows' block, which moves with the
    point; 1 to 6: the weights and biases, whose block is the whole array at every point). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev rRows : Rect S3200x33 := Rect.unit (s := S3200x33) ![0, 0] S3200x33.size inb_S3200x33_S3200x33_0_0
abbrev rMat : Rect S16x16 := Rect.unit (s := S16x16) ![0, 0] S16x16.size inb_S16x16_S16x16_0_0
abbrev rVec : Rect S1x16 := Rect.unit (s := S1x16) ![0, 0] S1x16.size inb_S1x16_S1x16_0_0
abbrev rOut : Rect S3200x16 := Rect.unit (s := S3200x16) ![0, 0] S3200x16.size inb_S3200x16_S3200x16_0_0

/-- The output window's staging buffer after the body, from the seven input blocks (window order: rows, W_left,
    b_left, W_edge, W_right, W_final, b_final): its one store, of the body's arithmetic on the loaded blocks. -/
def out0_7 (x0 : Vec F S3200x33 .f32) (x1 : Vec F S16x16 .f32) (x2 : Vec F S1x16 .f32) (x3 : Vec F S1x16 .f32)
    (x4 : Vec F S16x16 .f32) (x5 : Vec F S16x16 .f32) (x6 : Vec F S1x16 .f32) : Vec F S3200x16 .f32 :=
  View.canon [⟨rOut, k0_pay1 (View.ld x0 rRows) (View.ld x1 rMat) (View.ld x4 rMat) (View.ld x3 rVec) (View.ld x5 rMat)
    (View.ld x2 rVec) (View.ld x6 rVec)⟩]

/-- The one store covers the buffer. -/
theorem cover0_7 (p0 : Vec F S3200x16 .f32) (y : S3200x16.Idx) :
    ∃ pc ∈ ([⟨rOut, p0⟩] : List (View.Piece (Elt F) S3200x16 .f32)), y ∈ pc.1.set :=
  View.cover_of_tiled [⟨rOut, p0⟩] S3200x16.size (by rfl) y

/-! ## The body's run -/

set_option maxHeartbeats 1000000 in
/-- The body on whole staging buffers, the inputs' at contents `x0 … x6` and the output's at anything, runs to the
    continuation holding the inputs' as they were and the output's at `out0_7` of them. -/
theorem sound_kernel0 (c : Dev nD) (E : Set ℕ) (i : grid0.Coords)
    (arg1 : Memref sig .tc .vmem S3200x33 .f32) (harg1 : arg1.IsWhole) (arg2 : Memref sig .tc .vmem S16x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S16x16 .f32) (harg5 : arg5.IsWhole) (arg6 : Memref sig .tc .vmem S16x16 .f32) (harg6 : arg6.IsWhole)
    (arg7 : Memref sig .tc .vmem S1x16 .f32) (harg7 : arg7.IsWhole) (arg8 : Memref sig .tc .vmem S3200x16 .f32) (harg8 : arg8.IsWhole)
    (x0 : Vec F S3200x33 .f32) (x1 : Vec F S16x16 .f32) (x2 : Vec F S1x16 .f32) (x3 : Vec F S1x16 .f32)
    (x4 : Vec F S16x16 .f32) (x5 : Vec F S16x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__edge_msg_body i arg1 harg1 arg2 harg2 arg3 harg3 arg4 harg4 arg5 harg5 arg6 harg6 arg7 harg7 arg8 harg8) K := by
  simp only [cc0__edge_msg_body_eq_skeleton]; unfold cc0__edge_msg_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the first pipeline on core `c`: the arrays as the region finds them; after the body at point `t`
    each input window's buffer at its block and the output window's at `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' staging buffers hold their blocks, so the body's run applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second pallas_call (the per-node output map) as a pipeline over its 50 grid points, at the buffer contents
  `V` the region is entered with: each window's block at a point; what the body leaves in the output window's
  staging buffer as a function of the eight input blocks (its one store, the whole [2000,16] block, of the body's
  arithmetic `k1_pay1`); the body's run on whole staging buffers; the pipeline's proof data (every input window keeps
  its block, the output window holds that function of them); and the body obligation at every grid point.
-/
import proofs.«178704_j60610578481378_1_alg».proof.Proof.Gen.KernelIdeal.Launch
import proofs.«178704_j60610578481378_1_alg».proof.Proof.Gen.KernelIdeal.Skeleton
import proofs.«178704_j60610578481378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is not
    fetched its block index has not moved. One statement per input window (0 and 1: the aggregated messages' and the
    nodes' features' blocks, which move with the point; 2 to 7: the weights and biases, whose block is the whole
    array at every point). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1Rows : Rect S2000x16 := Rect.unit (s := S2000x16) ![0, 0] S2000x16.size inb_S2000x16_S2000x16_0_0
abbrev r1Mat : Rect S16x16 := Rect.unit (s := S16x16) ![0, 0] S16x16.size inb_S16x16_S16x16_0_0
abbrev r1Mat32 : Rect S32x16 := Rect.unit (s := S32x16) ![0, 0] S32x16.size inb_S32x16_S32x16_0_0
abbrev r1Vec : Rect S1x16 := Rect.unit (s := S1x16) ![0, 0] S1x16.size inb_S1x16_S1x16_0_0

/-- The output window's staging buffer after the body, from the eight input blocks (window order: aggregated
    messages, node features, W_post, b_post, W_out1, b_out1, W_out2, b_out2): its one store, of the body's arithmetic
    on the loaded blocks. -/
def out1_8 (y0 : Vec F S2000x16 .f32) (y1 : Vec F S2000x16 .f32) (y2 : Vec F S16x16 .f32) (y3 : Vec F S1x16 .f32)
    (y4 : Vec F S32x16 .f32) (y5 : Vec F S1x16 .f32) (y6 : Vec F S16x16 .f32) (y7 : Vec F S1x16 .f32) : Vec F S2000x16 .f32 :=
  View.canon [⟨r1Rows, k1_pay1 (View.ld y0 r1Rows) (View.ld y1 r1Rows) (View.ld y2 r1Mat) (View.ld y4 r1Mat32) (View.ld y6 r1Mat)
    (View.ld y3 r1Vec) (View.ld y5 r1Vec) (View.ld y7 r1Vec)⟩]

/-- The one store covers the buffer. -/
theorem cover1_8 (p0 : Vec F S2000x16 .f32) (y : S2000x16.Idx) :
    ∃ pc ∈ ([⟨r1Rows, p0⟩] : List (View.Piece (Elt F) S2000x16 .f32)), y ∈ pc.1.set :=
  View.cover_of_tiled [⟨r1Rows, p0⟩] S2000x16.size (by rfl) y

/-! ## The body's run -/

set_option maxHeartbeats 1000000 in
/-- The body on whole staging buffers, the inputs' at contents `y0 … y7` and the output's at anything, runs to the
    continuation holding the inputs' as they were and the output's at `out1_8` of them. -/
theorem sound_kernel1 (c : Dev nD) (E : Set ℕ) (i : grid1.Coords)
    (arg1 : Memref sig .tc .vmem S2000x16 .f32) (harg1 : arg1.IsWhole) (arg2 : Memref sig .tc .vmem S2000x16 .f32) (harg2 : arg2.IsWhole)
    (arg3 : Memref sig .tc .vmem S16x16 .f32) (harg3 : arg3.IsWhole) (arg4 : Memref sig .tc .vmem S1x16 .f32) (harg4 : arg4.IsWhole)
    (arg5 : Memref sig .tc .vmem S32x16 .f32) (harg5 : arg5.IsWhole) (arg6 : Memref sig .tc .vmem S1x16 .f32) (harg6 : arg6.IsWhole)
    (arg7 : Memref sig .tc .vmem S16x16 .f32) (harg7 : arg7.IsWhole) (arg8 : Memref sig .tc .vmem S1x16 .f32) (harg8 : arg8.IsWhole)
    (arg9 : Memref sig .tc .vmem S2000x16 .f32) (harg9 : arg9.IsWhole)
    (y0 : Vec F S2000x16 .f32) (y1 : Vec F S2000x16 .f32) (y2 : Vec F S16x16 .f32) (y3 : Vec F S1x16 .f32)
    (y4 : Vec F S32x16 .f32) (y5 : Vec F S1x16 .f32) (y6 : Vec F S16x16 .f32) (y7 : Vec F S1x16 .f32) (K : PUnit → sProp 𝕄) :
    iprop(owns (c : Thread nD τ) arg1 fullShare y0 ∗ owns (c : Thread nD τ) arg2 fullShare y1 ∗ owns (c : Thread nD τ) arg3 fullShare y2
        ∗ owns (c : Thread nD τ) arg4 fullShare y3 ∗ owns (c : Thread nD τ) arg5 fullShare y4 ∗ owns (c : Thread nD τ) arg6 fullShare y5
        ∗ owns (c : Thread nD τ) arg7 fullShare y6 ∗ owns (c : Thread nD τ) arg8 fullShare y7 ∗ (∃ d, owns (c : Thread nD τ) arg9 fullShare d)
        ∗ (iprop(owns (c : Thread nD τ) arg1 fullShare y0 ∗ owns (c : Thread nD τ) arg2 fullShare y1 ∗ owns (c : Thread nD τ) arg3 fullShare y2
            ∗ owns (c : Thread nD τ) arg4 fullShare y3 ∗ owns (c : Thread nD τ) arg5 fullShare y4 ∗ owns (c : Thread nD τ) arg6 fullShare y5
            ∗ owns (c : Thread nD τ) arg7 fullShare y6 ∗ owns (c : Thread nD τ) arg8 fullShare y7
            ∗ owns (c : Thread nD τ) arg9 fullShare (out1_8 y0 y1 y2 y3 y4 y5 y6 y7)) -∗ K ⟨⟩))
      ⊢ wp frame (wpE (defs₀ (F := F)) Variants.none c none) E (cc1__post_mlp_body i arg1 harg1 arg2 harg2 arg3 harg3 arg4 harg4 arg5 harg5 arg6 harg6 arg7 harg7 arg8 harg8 arg9 harg9) K := by
  simp only [cc1__post_mlp_body_eq_skeleton]; unfold cc1__post_mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of the second pipeline on core `c`: the arrays as the region finds them; after the body at point
    `t` each input window's buffer at its block and the output window's at `out1_8` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' staging buffers hold their blocks, so the body's run applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: two stretches of host operations and the two pallas_calls, from the launch to the return.

  The buffers' contents at each boundary are a fold from the launch memory: after a host stretch, the stretch's
  operations applied; after a pallas_call, its windows' arrays at what the pipeline leaves (the input arrays as
  entered, the output array with every grid point's block written back) and every other buffer as entered. Each
  pallas_call is a segment entered from "every unscoped buffer at the boundary's contents" and left at the next
  boundary's; @main is the four segments in order. `run_all`: every weakly fair execution terminates, faults nowhere,
  and ends with every unscoped buffer at the last boundary's contents `W4`. Read at an argument that is the launch
  contents (no host operation and no pallas_call writes an argument): the frame. Read at the result it is what the second
  pipeline leaves in its output array.
-/
import proofs.«178704_j60610578481378_1_alg».proof.Proof.KI.Region0
import proofs.«178704_j60610578481378_1_alg».proof.Proof.KI.Region1
import proofs.«178704_j60610578481378_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A reference a host stretch does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched: no host operation writes one, and a pallas_call reads it through an input
    window or not at all -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <| (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  ((W4_arr m ρ c 1).trans (((dat1 (V3 m ρ) c).arrAt_in 1 rfl _).trans (A_eq1 (V3 m ρ) c 1))).trans <| (W3_of m ρ c main_arg3 (by decide)).trans <| (W2_of_ne m ρ c main_arg3 (by decide)).trans <| (W1_of m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| ((W2_arr m ρ c 1).trans (((dat0 (V1 m ρ) c).arrAt_in 1 rfl _).trans (A_eq0 (V1 m ρ) c 1))).trans <| (W1_of m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| ((W2_arr m ρ c 3).trans (((dat0 (V1 m ρ) c).arrAt_in 3 rfl _).trans (A_eq0 (V1 m ρ) c 3))).trans <| (W1_of m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| ((W2_arr m ρ c 4).trans (((dat0 (V1 m ρ) c).arrAt_in 4 rfl _).trans (A_eq0 (V1 m ρ) c 4))).trans <| (W1_of m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <| ((W2_arr m ρ c 5).trans (((dat0 (V1 m ρ) c).arrAt_in 5 rfl _).trans (A_eq0 (V1 m ρ) c 5))).trans <| (W1_of m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <| (W2_of_ne m ρ c main_arg9 (by decide)).trans <| (W1_of m ρ c main_arg9 (by decide)).trans rfl
theorem W4_main_arg10 (c : Dev nD) : W4 m ρ c (Proc.devRef .tc main_arg10) = m ((c : Thread nD τ).loc main_arg10) :=
  ((W4_arr m ρ c 2).trans (((dat1 (V3 m ρ) c).arrAt_in 2 rfl _).trans (A_eq1 (V3 m ρ) c 2))).trans <| (W3_of m ρ c main_arg10 (by decide)).trans <| (W2_of_ne m ρ c main_arg10 (by decide)).trans <| (W1_of m ρ c main_arg10 (by decide)).trans rfl
theorem W4_main_arg11 (c : Dev nD) : W4 m ρ c (Proc.devRef .tc main_arg11) = m ((c : Thread nD τ).loc main_arg11) :=
  (W4_of_ne m ρ c main_arg11 (by decide)).trans <| (W3_of m ρ c main_arg11 (by decide)).trans <| (W2_of_ne m ρ c main_arg11 (by decide)).trans <| (W1_of m ρ c main_arg11 (by decide)).trans rfl
theorem W4_main_arg12 (c : Dev nD) : W4 m ρ c (Proc.devRef .tc main_arg12) = m ((c : Thread nD τ).loc main_arg12) :=
  ((W4_arr m ρ c 4).trans (((dat1 (V3 m ρ) c).arrAt_in 4 rfl _).trans (A_eq1 (V3 m ρ) c 4))).trans <| (W3_of m ρ c main_arg12 (by decide)).trans <| (W2_of_ne m ρ c main_arg12 (by decide)).trans <| (W1_of m ρ c main_arg12 (by decide)).trans rfl
theorem W4_main_arg13 (c : Dev nD) : W4 m ρ c (Proc.devRef .tc main_arg13) = m ((c : Thread nD τ).loc main_arg13) :=
  (W4_of_ne m ρ c main_arg13 (by decide)).trans <| (W3_of m ρ c main_arg13 (by decide)).trans <| (W2_of_ne m ρ c main_arg13 (by decide)).trans <| (W1_of m ρ c main_arg13 (by decide)).trans rfl
theorem W4_main_arg14 (c : Dev nD) : W4 m ρ c (Proc.devRef .tc main_arg14) = m ((c : Thread nD τ).loc main_arg14) :=
  ((W4_arr m ρ c 6).trans (((dat1 (V3 m ρ) c).arrAt_in 6 rfl _).trans (A_eq1 (V3 m ρ) c 6))).trans <| (W3_of m ρ c main_arg14 (by decide)).trans <| (W2_of_ne m ρ c main_arg14 (by decide)).trans <| (W1_of m ρ c main_arg14 (by decide)).trans rfl
theorem W4_main_arg15 (c : Dev nD) : W4 m ρ c (Proc.devRef .tc main_arg15) = m ((c : Thread nD τ).loc main_arg15) :=
  (W4_of_ne m ρ c main_arg15 (by decide)).trans <| (W3_of m ρ c main_arg15 (by decide)).trans <| (W2_of_ne m ρ c main_arg15 (by decide)).trans <| (W1_of m ρ c main_arg15 (by decide)).trans rfl

/-! ## The proof data family and the thread state -/

/-- No pallas_call has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The result array ends at what the second pipeline leaves in its output window's array. -/
theorem W4_result (c : Dev nD) : W4 m ρ c (Proc.devRef .tc main_v28) = (dat1 (V3 m ρ) c).arrAt 8 cfg1.N :=
  W4_arr m ρ c 8

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c)⟩)
    (run_all m ρ)

end Cert.KernelIdeal.Hand

end
-- ==== Proof.LibNary3.lean ====
/-
  The result of a host operation over a literal family of THREE operand references.

  An operation over a family of n operands leaves, at its result reference, its function applied to the family of the
  operands' contents, the family being read under a binder: contents of (family k). For a literal family of three
  references that family is, component by component, the three operands' contents each at its own reference; stated in
  that form the operands' contents are again terms at literal references, which further result lemmas rewrite.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- An operation over the literal family of three references x, a, b leaves at its result reference y its function
    applied to the family whose components are the contents at x, at a and at b, in that order (and nothing past the
    third). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference kept out of the pattern's index, so that a simplification pass can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- At any reference other than its result reference the operation leaves what was there. -/
theorem nary3_result_ne
    (f : ((k : Fin 3) → ((![x, a, b] : Fin 3 → Ref sig .tc) k).ty.Contents Val) → y.ty.Contents Val) (hxs hy)
    (F : Valuation τ sig Val) {r : Ref sig .tc} (h : r ≠ y) :
    (nary (τ := τ) ![x, a, b] y f hxs hy).result F (Proc.devRef .tc r) = F (Proc.devRef .tc r) :=
  nary_result_ne y ![x, a, b] f hxs hy F h

end Cert.LibNary3

end
-- ==== Proof.KI.Host.lean ====
/-
  What the program's two stretches of host operations leave in the buffers the two calls read, as terms of the
  stretch's start valuation, for any float family.

  First stretch: the two rows of the integer index array are each flattened and wrapped (a negative index has the
  table height added); the left and right tables are gathered at the wrapped rows; the two gathered blocks and the
  edge feature column are concatenated along the column axis; two bias vectors are given a unit leading axis.
  Second stretch: the rows the first call produced are summed into a zero table at the (unwrapped) row-1 indices;
  three bias vectors are given a unit leading axis.
-/
import proofs.«178704_j60610578481378_1_alg».proof.Proof.Gen.KernelIdeal.Launch
import proofs.«178704_j60610578481378_1_alg».proof.Proof.Gen.KernelIdeal.Regions
import proofs.«178704_j60610578481378_1_alg».proof.Proof.LibNary3
import Idealize.ShloMosaic.Lib.StableHlo.Run

noncomputable section

namespace Cert.KernelIdeal.Hand

open Cert.KernelIdeal Cert.KernelIdeal.Gen Idealize.ShloMosaic Idealize.ShloMosaic.TcCoe

variable {F : FTy → Type} [FloatOps F] (W : Valuation τ sig (Elt F))

/-- The signed index wrap of one row of the index array, as a column: an index below zero has the table height
    100000 added, any other index is kept; the wrapped row is then given a unit trailing axis. Here the row is row 0. -/
def kIdx0 : (⟨S3200000x1, .i32⟩ : BufTy).Contents (Elt F) :=
  broadcastInDim S3200000x1 ![0] bcast_S3200000_S3200000x1_0
    (select
      (cmpi .slt
        (shapeCast _ (extractStridedSlice S1x3200000 ![0, 0] (W main_arg1) slices_S2x3200000_S1x3200000_0_0) shapeCasts_S1x3200000_S3200000)
        (broadcastInDim S3200000 ![] bcast_S_S3200000 (constantI S_ 32 0#32)))
      (addi
        (shapeCast _ (extractStridedSlice S1x3200000 ![0, 0] (W main_arg1) slices_S2x3200000_S1x3200000_0_0) shapeCasts_S1x3200000_S3200000)
        (broadcastInDim S3200000 ![] bcast_S_S3200000 (constantI S_ 32 100000#32)))
      (shapeCast _ (extractStridedSlice S1x3200000 ![0, 0] (W main_arg1) slices_S2x3200000_S1x3200000_0_0) shapeCasts_S1x3200000_S3200000))

/-- The same wrap of row 1 of the index array, as a column. -/
def kIdx1 : (⟨S3200000x1, .i32⟩ : BufTy).Contents (Elt F) :=
  broadcastInDim S3200000x1 ![0] bcast_S3200000_S3200000x1_0
    (select
      (cmpi .slt
        (shapeCast _ (extractStridedSlice S1x3200000 ![1, 0] (W main_arg1) slices_S2x3200000_S1x3200000_1_0) shapeCasts_S1x3200000_S3200000)
        (broadcastInDim S3200000 ![] bcast_S_S3200000 (constantI S_ 32 0#32)))
      (addi
        (shapeCast _ (extractStridedSlice S1x3200000 ![1, 0] (W main_arg1) slices_S2x3200000_S1x3200000_1_0) shapeCasts_S1x3200000_S3200000)
        (broadcastInDim S3200000 ![] bcast_S_S3200000 (constantI S_ 32 100000#32)))
      (shapeCast _ (extractStridedSlice S1x3200000 ![1, 0] (W main_arg1) slices_S2x3200000_S1x3200000_1_0) shapeCasts_S1x3200000_S3200000))

/-- The rows of the left table gathered at the wrapped row-0 indices: one 16-wide row per edge. -/
def kLg : (⟨S3200000x16, .f32⟩ : BufTy).Contents (Elt F) :=
  Host.gather gather_S100000x16_S3200000x1_S3200000x16_1_0_n_n_0_1_116 (W main_arg0) (kIdx0 W)

/-- The rows of the right table gathered at the wrapped row-1 indices: one 16-wide row per edge. -/
def kRg : (⟨S3200000x16, .f32⟩ : BufTy).Contents (Elt F) :=
  Host.gather gather_S100000x16_S3200000x1_S3200000x16_1_0_n_n_0_1_116 (W main_arg3) (kIdx1 W)

/-- The fold of a literal line of operations, read at one reference, as the composed term over the start valuation:
    each operation's value at its own result reference, what was there before it at any other reference. -/
local macro "host_results" : tactic =>
  `(tactic| simp (disch := decide) only [StableHlo.after_cons, StableHlo.after_nil,
      StableHlo.nullary_result', StableHlo.unary_result', StableHlo.binary_result', StableHlo.ternary_result',
      StableHlo.reshape_result', Cert.LibNary3.nary3_result',
      StableHlo.nullary_result_ne', StableHlo.unary_result_ne', StableHlo.binary_result_ne',
      StableHlo.ternary_result_ne', StableHlo.reshape_result_ne', StableHlo.nary_result_ne'])

/-- The concatenation, from any valuation that holds the two gathered blocks and the feature column. -/
private theorem host0_v18_of (V : Valuation τ sig (Elt F))
    (h10 : (V main_v10 : (⟨S3200000x16, .f32⟩ : BufTy).Contents (Elt F)) = kLg W)
    (h17 : (V main_v17 : (⟨S3200000x16, .f32⟩ : BufTy).Contents (Elt F)) = kRg W)
    (h2 : (V main_arg2 : (⟨S3200000x1, .f32⟩ : BufTy).Contents (Elt F)) = W main_arg2) :
    (StableHlo.after ((hostOps0 (F := F)).drop 22) V main_v18 : (⟨S3200000x33, .f32⟩ : BufTy).Contents (Elt F))
      = concatenate S3200000x33 1
          [⟨S3200000x16, kLg W⟩, ⟨S3200000x16, kRg W⟩,
           ⟨S3200000x1, (W main_arg2 : (⟨S3200000x1, .f32⟩ : BufTy).Contents (Elt F))⟩]
          concatenates_S3200000x16_S3200000x16_S3200000x1_S3200000x33_d1 := by
  dsimp only [hostOps0, List.drop]
  host_results
  rw [h10, h17, h2]
  rfl

/-- After the first stretch the concatenated operand of the first call holds, side by side along the column axis, the
    gathered left rows, the gathered right rows and the edge feature column: the stretch is its first twenty-two
    operations, which leave the two gathered blocks and do not write the feature column, then the concatenation and
    two operations that write elsewhere. -/
theorem host0_v18 :
    (StableHlo.after hostOps0 W main_v18 : (⟨S3200000x33, .f32⟩ : BufTy).Contents (Elt F))
      = concatenate S3200000x33 1
          [⟨S3200000x16, kLg W⟩, ⟨S3200000x16, kRg W⟩,
           ⟨S3200000x1, (W main_arg2 : (⟨S3200000x1, .f32⟩ : BufTy).Contents (Elt F))⟩]
          concatenates_S3200000x16_S3200000x16_S3200000x1_S3200000x33_d1 := by
  refine host0_v18_of W (StableHlo.after ((hostOps0 (F := F)).take 22) W) ?_ ?_ ?_
  · dsimp only [hostOps0, List.take]
    host_results
    rfl
  · dsimp only [hostOps0, List.take]
    host_results
    rfl
  · dsimp only [hostOps0, List.take]
    host_results

/-- After the first stretch the first bias operand is the bias vector given a unit leading axis. -/
theorem host0_v19 :
    (StableHlo.after hostOps0 W main_v19 : (⟨S1x16, .f32⟩ : BufTy).Contents (Elt F))
      = shapeCast S1x16 (W main_arg5 : (⟨S16, .f32⟩ : BufTy).Contents (Elt F)) shapeCasts_S16_S1x16 := by
  dsimp only [hostOps0]
  host_results
  rfl

/-- After the first stretch the second bias operand is the bias vector given a unit leading axis. -/
theorem host0_v20 :
    (StableHlo.after hostOps0 W main_v20 : (⟨S1x16, .f32⟩ : BufTy).Contents (Elt F))
      = shapeCast S1x16 (W main_arg9 : (⟨S16, .f32⟩ : BufTy).Contents (Elt F)) shapeCasts_S16_S1x16 := by
  dsimp only [hostOps0]
  host_results
  rfl

/-- After the first stretch the unwrapped row 1 of the index array is held flat. -/
theorem host0_v3 :
    (StableHlo.after hostOps0 W main_v3 : (⟨S3200000, .i32⟩ : BufTy).Contents (Elt F))
      = shapeCast _ (extractStridedSlice S1x3200000 ![1, 0] (W main_arg1) slices_S2x3200000_S1x3200000_1_0) shapeCasts_S1x3200000_S3200000 := by
  dsimp only [hostOps0]
  host_results
  rfl

/-- After the second stretch the scatter result is the sum, into a zero table, of the rows held at the start in the
    first call's result, at the flat row-1 indices given a unit trailing axis. -/
theorem host1_v24 :
    (StableHlo.after hostOps1 W main_v24 : (⟨S100000x16, .f32⟩ : BufTy).Contents (Elt F))
      = Host.scatterAdd scatter_S100000x16_S3200000x1_S3200000x16_1_0_0_1
          (broadcastInDim S100000x16 ![] bcast_S_S100000x16 (constant S_ .f32 0x00000000#32))
          (broadcastInDim S3200000x1 ![0] bcast_S3200000_S3200000x1_0 (W main_v3 : (⟨S3200000, .i32⟩ : BufTy).Contents (Elt F)))
          (W main_v21 : (⟨S3200000x16, .f32⟩ : BufTy).Contents (Elt F)) := by
  dsimp only [hostOps1]
  host_results

/-- After the second stretch the first of the second call's three bias operands is its bias vector given a unit
    leading axis. -/
theorem host1_v25 :
    (StableHlo.after hostOps1 W main_v25 : (⟨S1x16, .f32⟩ : BufTy).Contents (Elt F))
      = shapeCast S1x16 (W main_arg11 : (⟨S16, .f32⟩ : BufTy).Contents (Elt F)) shapeCasts_S16_S1x16 := by
  dsimp only [hostOps1]
  host_results
  rfl

/-- The same for the second of the three. -/
theorem host1_v26 :
    (StableHlo.after hostOps1 W main_v26 : (⟨S1x16, .f32⟩ : BufTy).Contents (Elt F))
      = shapeCast S1x16 (W main_arg13 : (⟨S16, .f32⟩ : BufTy).Contents (Elt F)) shapeCasts_S16_S1x16 := by
  dsimp only [hostOps1]
  host_results
  rfl

/-- The same for the third. -/
theorem host1_v27 :
    (StableHlo.after hostOps1 W main_v27 : (⟨S1x16, .f32⟩ : BufTy).Contents (Elt F))
      = shapeCast S1x16 (W main_arg15 : (⟨S16, .f32⟩ : BufTy).Contents (Elt F)) shapeCasts_S16_S1x16 := by
  dsimp only [hostOps1]
  host_results
  rfl

end Cert.KernelIdeal.Hand

end
-- ==== Proof.Spec.lean ====
/-
  What the two programs compute, row by row, over the extended reals.

  An edge `e` carries a row of 33 numbers: the 16 features of its left node, the 16 features of its right node and
  its own feature. Its message is an affine map of the rectified sum of three affine maps of those three pieces:
      pre k   = Σ_a row[a]·Wl[a,k] + Σ_a row[16+a]·Wr[a,k] + Σ_a row[32+a]·We[a,k] + bl[k]
      msg q   = Σ_k max(pre k, 0)·Wf[k,q] + bf[q].
  A right node `n` carries the 16 sums of the messages that point at it (`agg`) and its own 16 features (`rf`):
      post k  = Σ_a max(agg[a], 0)·Wpost[a,k] + bpost[k]
      cat a   = post a (a < 16),  rf (a − 16) (16 ≤ a < 32)
      h1 k    = Σ_a cat a·Wout1[a,k] + bout1[k]
      out q   = Σ_k max(h1 k, 0)·Wout2[k,q] + bout2[q].
  Every sum is a finite sum of extended reals; addition there is commutative and associative without any
  finiteness assumption, which is all the two programs' different groupings of `pre` need.
-/
import Mathlib.Data.EReal.Basic
import Mathlib.Algebra.BigOperators.Fin

noncomputable section

namespace Cert.Spec

open scoped BigOperators

/-- The pre-activation of one edge at output feature `k`: left, right and edge contributions, then the bias. -/
def pre (row : Fin 33 → EReal) (Wl Wr : Fin 16 → Fin 16 → EReal) (We : Fin 1 → Fin 16 → EReal) (bl : Fin 16 → EReal)
    (k : Fin 16) : EReal :=
  (((∑ a : Fin 16, row ⟨a.val, by omega⟩ * Wl a k) + (∑ a : Fin 16, row ⟨16 + a.val, by omega⟩ * Wr a k))
    + (∑ a : Fin 1, row ⟨32 + a.val, by omega⟩ * We a k)) + bl k

/-- The same pre-activation with the bias added to the left contribution first and the right contribution last:
    the grouping a plain `(x_l·Wl + bl) + x_e·We + x_r·Wr` has. -/
theorem pre_regroup (row : Fin 33 → EReal) (Wl Wr : Fin 16 → Fin 16 → EReal) (We : Fin 1 → Fin 16 → EReal)
    (bl : Fin 16 → EReal) (k : Fin 16) :
    ((((∑ a : Fin 16, row ⟨a.val, by omega⟩ * Wl a k) + bl k) + (∑ a : Fin 1, row ⟨32 + a.val, by omega⟩ * We a k))
      + (∑ a : Fin 16, row ⟨16 + a.val, by omega⟩ * Wr a k)) = pre row Wl Wr We bl k := by
  unfold pre
  abel

/-- An edge's row of 33 numbers put together from its three pieces: the left node's 16 features, the right node's 16
    features, the edge's own feature. -/
def catRow (l r : Fin 16 → EReal) (x : Fin 1 → EReal) : Fin 33 → EReal := fun a =>
  if h : a.val < 16 then l ⟨a.val, h⟩ else if h2 : a.val < 32 then r ⟨a.val - 16, by omega⟩ else x ⟨a.val - 32, by omega⟩

theorem catRow_left (l r : Fin 16 → EReal) (x : Fin 1 → EReal) (a : Fin 16) (h : a.val < 33) :
    catRow l r x ⟨a.val, h⟩ = l a := by
  simp [catRow, a.isLt]

theorem catRow_mid (l r : Fin 16 → EReal) (x : Fin 1 → EReal) (a : Fin 16) (h : 16 + a.val < 33) :
    catRow l r x ⟨16 + a.val, h⟩ = r a := by
  have h1 : ¬ (16 + a.val < 16) := by omega
  have h2 : 16 + a.val < 32 := by omega
  simp only [catRow, h1, h2, dite_false, dite_true]
  exact congrArg r (Fin.ext (by simp))

theorem catRow_right (l r : Fin 16 → EReal) (x : Fin 1 → EReal) (a : Fin 1) (h : 32 + a.val < 33) :
    catRow l r x ⟨32 + a.val, h⟩ = x a := by
  have h1 : ¬ (32 + a.val < 16) := by omega
  have h2 : ¬ (32 + a.val < 32) := by omega
  simp only [catRow, h1, h2, dite_false]
  exact congrArg x (Fin.ext (by simp))

/-- One edge's message at output feature `q`. -/
def msgRow (row : Fin 33 → EReal) (Wl Wr : Fin 16 → Fin 16 → EReal) (We : Fin 1 → Fin 16 → EReal) (bl : Fin 16 → EReal)
    (Wf : Fin 16 → Fin 16 → EReal) (bf : Fin 16 → EReal) (q : Fin 16) : EReal :=
  (∑ k : Fin 16, max (pre row Wl Wr We bl k) 0 * Wf k q) + bf q

/-- The post-convolution map of a node's aggregated messages. -/
def post (agg : Fin 16 → EReal) (Wpost : Fin 16 → Fin 16 → EReal) (bpost : Fin 16 → EReal) (k : Fin 16) : EReal :=
  (∑ a : Fin 16, max (agg a) 0 * Wpost a k) + bpost k

/-- The 32 inputs of the output layer: the post-convolution features, then the node's own features. -/
def cat (agg rf : Fin 16 → EReal) (Wpost : Fin 16 → Fin 16 → EReal) (bpost : Fin 16 → EReal) (a : Fin 32) : EReal :=
  if h : a.val < 16 then post agg Wpost bpost ⟨a.val, h⟩ else rf ⟨a.val - 16, by omega⟩

/-- The hidden layer of the output map. -/
def h1 (agg rf : Fin 16 → EReal) (Wpost : Fin 16 → Fin 16 → EReal) (bpost : Fin 16 → EReal)
    (Wout1 : Fin 32 → Fin 16 → EReal) (bout1 : Fin 16 → EReal) (k : Fin 16) : EReal :=
  (∑ a : Fin 32, cat agg rf Wpost bpost a * Wout1 a k) + bout1 k

/-- One node's result at output feature `q`. -/
def outRow (agg rf : Fin 16 → EReal) (Wpost : Fin 16 → Fin 16 → EReal) (bpost : Fin 16 → EReal)
    (Wout1 : Fin 32 → Fin 16 → EReal) (bout1 : Fin 16 → EReal) (Wout2 : Fin 16 → Fin 16 → EReal) (bout2 : Fin 16 → EReal)
    (q : Fin 16) : EReal :=
  (∑ k : Fin 16, max (h1 agg rf Wpost bpost Wout1 bout1 k) 0 * Wout2 k q) + bout2 q

end Cert.Spec

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.KI.Pay1.lean ====
import proofs.«178704_j60610578481378_1_alg».proof.Proof.Gen.KernelIdeal.Skeleton
import proofs.«178704_j60610578481378_1_alg».proof.Proof.Spec
import proofs.«178704_j60610578481378_1_alg».proof.Proof.LibOuterDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Idealize.ShloMosaic Idealize.ShloMosaic.ValueIdx

/-- A [1,16] row repeated over 2000 rows, read at (p, q): the row's entry q. -/
private theorem row_bcast_at (v : Vec Ideal S1x16 .f32) (p : Fin 2000) (q : Fin 16) :
    broadcastTo S2000x16 (shapeCast S1x16 v shapeCasts_S1x16_S1x16) broadcasts_S1x16_S2000x16 (ix2 p q) = v (ix2 0 q) := by
  rw [shapeCast_self]
  refine broadcastTo_apply v _ (ix2 p q) (ix2 0 q) ?_
  intro a
  match a with
  | ⟨0, _⟩ => rfl
  | ⟨1, _⟩ => rfl

/-- The rectifier read at an index: the maximum of the entry and 0. -/
private theorem relu_at (X : FVec Ideal S2000x16 .f32) (p : Fin 2000) (k : Fin 16) :
    maximumf X (broadcast S2000x16 (FloatOps.ofBits (F := Ideal) FTy.f32 0x00000000#32)) (ix2 p k) = max (X (ix2 p k)) 0 := by
  rw [maximumf_apply, broadcast_apply, Ideal.ofBits_def, Ideal.ofBits_zero_f32]

/-- An affine layer with 16 inputs read at (p, q): Σ_k X(p,k)·W(k,q) + b(q). -/
private theorem dense16_at (X : FVec Ideal S2000x16 .f32) (W : Vec Ideal S16x16 .f32) (b : Vec Ideal S1x16 .f32)
    (p : Fin 2000) (q : Fin 16) :
    addf (matmul dot_S2000x16_S16x16_S2000x16_1_0_0_1_n_n none (truncf FTy.bf16 X bitsLt_bf16_f32)
        (truncf FTy.bf16 W bitsLt_bf16_f32) (constant S2000x16 FTy.f32 0x00000000#32))
      (broadcastTo S2000x16 (shapeCast S1x16 b shapeCasts_S1x16_S1x16) broadcasts_S1x16_S2000x16) (ix2 p q)
      = (∑ k : Fin 16, X (ix2 p k) * W (ix2 k q)) + b (ix2 0 q) := by
  rw [addf_apply, row_bcast_at,
    Cert.LibOuterDot.matmul_zero_ix2 dot_S2000x16_S16x16_S2000x16_1_0_0_1_n_n rfl rfl rfl rfl rfl rfl rfl rfl]
  rfl

/-- An affine layer with 32 inputs read at (p, q): Σ_a X(p,a)·W(a,q) + b(q). -/
private theorem dense32_at (X : FVec Ideal S2000x32 .f32) (W : Vec Ideal S32x16 .f32) (b : Vec Ideal S1x16 .f32)
    (p : Fin 2000) (q : Fin 16) :
    addf (matmul dot_S2000x32_S32x16_S2000x16_1_0_0_1_n_n none (truncf FTy.bf16 X bitsLt_bf16_f32)
        (truncf FTy.bf16 W bitsLt_bf16_f32) (constant S2000x16 FTy.f32 0x00000000#32))
      (broadcastTo S2000x16 (shapeCast S1x16 b shapeCasts_S1x16_S1x16) broadcasts_S1x16_S2000x16) (ix2 p q)
      = (∑ a : Fin 32, X (ix2 p a) * W (ix2 a q)) + b (ix2 0 q) := by
  rw [addf_apply, row_bcast_at,
    Cert.LibOuterDot.matmul_zero_ix2 dot_S2000x32_S32x16_S2000x16_1_0_0_1_n_n rfl rfl rfl rfl rfl rfl rfl rfl]
  rfl

/-- Two [2000,16] blocks laid side by side, read at (p, a): the first at column a when a < 16, else the second at
    column a − 16. -/
private theorem cat_at (X Y : FVec Ideal S2000x16 .f32) (p : Fin 2000) (a : Fin 32) :
    concatenate S2000x32 1 [⟨S2000x16, X⟩, ⟨S2000x16, Y⟩] concatenates_S2000x16_S2000x16_S2000x32_d1 (ix2 p a)
      = if h : a.val < 16 then X (ix2 p ⟨a.val, h⟩) else Y (ix2 p ⟨a.val - 16, by omega⟩) := by
  by_cases h : a.val < 16
  · rw [dif_pos h]
    refine concatenate_pair_apply_left (1 : Fin 2) X Y _ (ix2 p a) rfl (ix2 p ⟨a.val, h⟩) ?_
    intro b
    match b with
    | ⟨0, _⟩ => rfl
    | ⟨1, _⟩ => rfl
  · rw [dif_neg h]
    refine concatenate_pair_apply_right (1 : Fin 2) X Y _ (ix2 p a) rfl rfl (ix2 p ⟨a.val - 16, by omega⟩) ?_ ?_
    · intro b hb
      match b, hb with
      | ⟨0, _⟩, _ => rfl
      | ⟨1, _⟩, hb => exact absurd rfl hb
    · show a.val - 16 + 16 = a.val
      omega

/-- The post-convolution layer read at (p, k): Σ_a max(agg(p,a), 0)·Wpost(a,k) + bpost(k). -/
private theorem post_at (y0 : Vec Ideal S2000x16 .f32) (y2 : Vec Ideal S16x16 .f32) (y3 : Vec Ideal S1x16 .f32)
    (p : Fin 2000) (k : Fin 16) :
    addf (matmul dot_S2000x16_S16x16_S2000x16_1_0_0_1_n_n none
        (truncf FTy.bf16 (maximumf (shapeCast S2000x16 y0 shapeCasts_S2000x16_S2000x16)
          (broadcast S2000x16 (FloatOps.ofBits (F := Ideal) FTy.f32 0x00000000#32))) bitsLt_bf16_f32)
        (truncf FTy.bf16 y2 bitsLt_bf16_f32) (constant S2000x16 FTy.f32 0x00000000#32))
      (broadcastTo S2000x16 (shapeCast S1x16 y3 shapeCasts_S1x16_S1x16) broadcasts_S1x16_S2000x16) (ix2 p k)
      = Cert.Spec.post (fun a => y0 (ix2 p a)) (fun a k => y2 (ix2 a k)) (fun k => y3 (ix2 0 k)) k := by
  rw [dense16_at, shapeCast_self]
  unfold Cert.Spec.post
  congr 1
  exact Finset.sum_congr rfl fun a _ => by rw [relu_at]

/-- The hidden layer of the output map read at (p, k): the 32 inputs are the post-convolution features, then the
    node's own features. -/
private theorem h1_at (y0 y1 : Vec Ideal S2000x16 .f32) (y2 : Vec Ideal S16x16 .f32) (y3 : Vec Ideal S1x16 .f32)
    (y4 : Vec Ideal S32x16 .f32) (y5 : Vec Ideal S1x16 .f32) (p : Fin 2000) (k : Fin 16) :
    addf (matmul dot_S2000x32_S32x16_S2000x16_1_0_0_1_n_n none
        (truncf FTy.bf16
          (concatenate S2000x32 1
            [⟨S2000x16,
                addf (matmul dot_S2000x16_S16x16_S2000x16_1_0_0_1_n_n none
                    (truncf FTy.bf16 (maximumf (shapeCast S2000x16 y0 shapeCasts_S2000x16_S2000x16)
                      (broadcast S2000x16 (FloatOps.ofBits (F := Ideal) FTy.f32 0x00000000#32))) bitsLt_bf16_f32)
                    (truncf FTy.bf16 y2 bitsLt_bf16_f32) (constant S2000x16 FTy.f32 0x00000000#32))
                  (broadcastTo S2000x16 (shapeCast S1x16 y3 shapeCasts_S1x16_S1x16) broadcasts_S1x16_S2000x16)⟩,
              ⟨S2000x16, y1⟩]
            concatenates_S2000x16_S2000x16_S2000x32_d1)
          bitsLt_bf16_f32)
        (truncf FTy.bf16 y4 bitsLt_bf16_f32) (constant S2000x16 FTy.f32 0x00000000#32))
      (broadcastTo S2000x16 (shapeCast S1x16 y5 shapeCasts_S1x16_S1x16) broadcasts_S1x16_S2000x16) (ix2 p k)
      = Cert.Spec.h1 (fun a => y0 (ix2 p a)) (fun a => y1 (ix2 p a)) (fun a k => y2 (ix2 a k)) (fun k => y3 (ix2 0 k))
          (fun a k => y4 (ix2 a k)) (fun k => y5 (ix2 0 k)) k := by
  rw [dense32_at]
  unfold Cert.Spec.h1
  congr 1
  refine Finset.sum_congr rfl fun a _ => ?_
  rw [cat_at]
  unfold Cert.Spec.cat
  by_cases h : a.val < 16
  · rw [dif_pos h, dif_pos h, post_at]
  · rw [dif_neg h, dif_neg h]

theorem pay1_at (y0 y1 : Vec Ideal S2000x16 .f32) (y2 : Vec Ideal S16x16 .f32) (y3 : Vec Ideal S1x16 .f32) (y4 : Vec Ideal S32x16 .f32) (y5 : Vec Ideal S1x16 .f32) (y6 : Vec Ideal S16x16 .f32) (y7 : Vec Ideal S1x16 .f32) (p : Fin 2000) (q : Fin 16) :
    k1_pay1 (F := Ideal) y0 y1 y2 y4 y6 y3 y5 y7 (ix2 p q)
      = Cert.Spec.outRow (fun a => y0 (ix2 p a)) (fun a => y1 (ix2 p a)) (fun a k => y2 (ix2 a k)) (fun k => y3 (ix2 0 k)) (fun a k => y4 (ix2 a k)) (fun k => y5 (ix2 0 k)) (fun a k => y6 (ix2 a k)) (fun k => y7 (ix2 0 k)) q := by
  simp only [k1_pay1]
  rw [dense16_at]
  unfold Cert.Spec.outRow
  congr 1
  refine Finset.sum_congr rfl fun k _ => ?_
  rw [relu_at, h1_at]

end Cert.KernelIdeal.HandVal

end
-- ==== Proof.KI.Val1.lean ====
import proofs.«178704_j60610578481378_1_alg».proof.Proof.KI.Region1
import proofs.«178704_j60610578481378_1_alg».proof.Proof.KI.Pay1
import Idealize.ShloMosaic.Lib.Pipeline.Value

noncomputable section

namespace Cert.KernelIdeal.HandVal

open Cert.KernelIdeal Cert.KernelIdeal.Gen Cert.KernelIdeal.Hand Idealize.ShloMosaic Idealize.ShloMosaic.TcCoe Idealize.ShloMosaic.ValueIdx

variable (V : (c : Dev nD) → (b : Ref sig .tc) → Buf (Elt Ideal) ((c : Thread nD τ).loc b))

/-- The second call's result array: row n is the output map of row n of the aggregated messages and of the nodes'
    features, under the six weight and bias arrays. -/
def outArr (c : Dev nD) : S100000x16.Idx → EReal := fun i =>
  Cert.Spec.outRow (fun a => (V c main_v24 : S100000x16.Idx → EReal) (ix2 (i 0) a))
    (fun a => (V c main_arg3 : S100000x16.Idx → EReal) (ix2 (i 0) a))
    (fun a k => (V c main_arg10 : S16x16.Idx → EReal) (ix2 a k)) (fun k => (V c main_v25 : S1x16.Idx → EReal) (ix2 0 k))
    (fun a k => (V c main_arg12 : S32x16.Idx → EReal) (ix2 a k)) (fun k => (V c main_v26 : S1x16.Idx → EReal) (ix2 0 k))
    (fun a k => (V c main_arg14 : S16x16.Idx → EReal) (ix2 a k)) (fun k => (V c main_v27 : S1x16.Idx → EReal) (ix2 0 k)) (i 1)

theorem outArr_at (c : Dev nD) (n : Fin 100000) (q : Fin 16) : outArr V c (ix2 n q) = Cert.Spec.outRow (fun a => (V c main_v24 : S100000x16.Idx → EReal) (ix2 n a)) (fun a => (V c main_arg3 : S100000x16.Idx → EReal) (ix2 n a)) (fun a k => (V c main_arg10 : S16x16.Idx → EReal) (ix2 a k)) (fun k => (V c main_v25 : S1x16.Idx → EReal) (ix2 0 k)) (fun a k => (V c main_arg12 : S32x16.Idx → EReal) (ix2 a k)) (fun k => (V c main_v26 : S1x16.Idx → EReal) (ix2 0 k)) (fun a k => (V c main_arg14 : S16x16.Idx → EReal) (ix2 a k)) (fun k => (V c main_v27 : S1x16.Idx → EReal) (ix2 0 k)) q := rfl

/-- The zero offsets, however spelt. -/
private theorem hz : (![0, 0] : Fin 2 → Nat) = fun _ => 0 := funext fun a => by fin_cases a <;> rfl

/-- The index maps of the two row-blocked inputs and of the output, over the grid: block row t, block column 0. -/
private theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- The index maps of the six weight and bias windows, over the grid: block (0, 0) at every point. -/
private theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Window 0's block at point t, read at (p, a): row 2000·t + p of the aggregated messages. -/
private theorem blk0_at (c : Dev nD) (t : Fin cfg1.N) (p : Fin 2000) (a : Fin 16) (n : Fin 100000)
    (hn : n.val = t.val * 2000 + p.val) :
    (iblk1 V c 0 t : Vec Ideal S2000x16 .f32) (ix2 p a) = (V c main_v24 : S100000x16.Idx → EReal) (ix2 n a) := by
  have e0 := (idx_rows t).1
  have e1 := (idx_rows t).2.1
  unfold iblk1
  rw [View.read_apply]
  show V c main_v24 _ = V c main_v24 _
  congr 1
  funext b; apply Fin.ext
  match b with
  | ⟨0, _⟩ => show win1_0.index t (0 : Fin 2) * 2000 + 1 * p.val = n.val; omega
  | ⟨1, _⟩ => show win1_0.index t (1 : Fin 2) * 16 + 1 * a.val = a.val; omega

/-- Window 1's block at point t, read at (p, a): row 2000·t + p of the nodes' features. -/
private theorem blk1_at (c : Dev nD) (t : Fin cfg1.N) (p : Fin 2000) (a : Fin 16) (n : Fin 100000)
    (hn : n.val = t.val * 2000 + p.val) :
    (iblk1 V c 1 t : Vec Ideal S2000x16 .f32) (ix2 p a) = (V c main_arg3 : S100000x16.Idx → EReal) (ix2 n a) := by
  have e0 := (idx_rows t).2.2.1
  have e1 := (idx_rows t).2.2.2.1
  unfold iblk1
  rw [View.read_apply]
  show V c main_arg3 _ = V c main_arg3 _
  congr 1
  funext b; apply Fin.ext
  match b with
  | ⟨0, _⟩ => show win1_1.index t (0 : Fin 2) * 2000 + 1 * p.val = n.val; omega
  | ⟨1, _⟩ => show win1_1.index t (1 : Fin 2) * 16 + 1 * a.val = a.val; omega

/-- Window 2's block at every point is the post-convolution weights, whole. -/
private theorem blk2_eq (c : Dev nD) (t : Fin cfg1.N) :
    (iblk1 V c 2 t : Vec Ideal S16x16 .f32) = (V c main_arg10 : S16x16.Idx → EReal) := by
  have e0 := (idx_whole t).1.1
  have e1 := (idx_whole t).1.2
  funext j
  obtain ⟨a, k, rfl⟩ : ∃ a k, j = ix2 a k := ⟨j 0, j 1, eq_ix2 j⟩
  unfold iblk1
  rw [View.read_apply]
  show V c main_arg10 _ = V c main_arg10 _
  congr 1
  funext b; apply Fin.ext
  match b with
  | ⟨0, _⟩ => show win1_2.index t (0 : Fin 2) * 16 + 1 * a.val = a.val; omega
  | ⟨1, _⟩ => show win1_2.index t (1 : Fin 2) * 16 + 1 * k.val = k.val; omega

/-- Window 3's block at every point is the post-convolution bias, whole. -/
private theorem blk3_eq (c : Dev nD) (t : Fin cfg1.N) :
    (iblk1 V c 3 t : Vec Ideal S1x16 .f32) = (V c main_v25 : S1x16.Idx → EReal) := by
  have e0 := (idx_whole t).2.1.1
  have e1 := (idx_whole t).2.1.2
  funext j
  obtain ⟨a, k, rfl⟩ : ∃ a k, j = ix2 a k := ⟨j 0, j 1, eq_ix2 j⟩
  unfold iblk1
  rw [View.read_apply]
  show V c main_v25 _ = V c main_v25 _
  congr 1
  funext b; apply Fin.ext
  match b with
  | ⟨0, _⟩ => show win1_3.index t (0 : Fin 2) * 1 + 1 * a.val = a.val; omega
  | ⟨1, _⟩ => show win1_3.index t (1 : Fin 2) * 16 + 1 * k.val = k.val; omega

/-- Window 4's block at every point is the hidden layer's weights, whole. -/
private theorem blk4_eq (c : Dev nD) (t : Fin cfg1.N) :
    (iblk1 V c 4 t : Vec Ideal S32x16 .f32) = (V c main_arg12 : S32x16.Idx → EReal) := by
  have e0 := (idx_whole t).2.2.1.1
  have e1 := (idx_whole t).2.2.1.2
  funext j
  obtain ⟨a, k, rfl⟩ : ∃ a k, j = ix2 a k := ⟨j 0, j 1, eq_ix2 j⟩
  unfold iblk1
  rw [View.read_apply]
  show V c main_arg12 _ = V c main_arg12 _
  congr 1
  funext b; apply Fin.ext
  match b with
  | ⟨0, _⟩ => show win1_4.index t (0 : Fin 2) * 32 + 1 * a.val = a.val; omega
  | ⟨1, _⟩ => show win1_4.index t (1 : Fin 2) * 16 + 1 * k.val = k.val; omega

/-- Window 5's block at every point is the hidden layer's bias, whole. -/
private theorem blk5_eq (c : Dev nD) (t : Fin cfg1.N) :
    (iblk1 V c 5 t : Vec Ideal S1x16 .f32) = (V c main_v26 : S1x16.Idx → EReal) := by
  have e0 := (idx_whole t).2.2.2.1.1
  have e1 := (idx_whole t).2.2.2.1.2
  funext j
  obtain ⟨a, k, rfl⟩ : ∃ a k, j = ix2 a k := ⟨j 0, j 1, eq_ix2 j⟩
  unfold iblk1
  rw [View.read_apply]
  show V c main_v26 _ = V c main_v26 _
  congr 1
  funext b; apply Fin.ext
  match b with
  | ⟨0, _⟩ => show win1_5.index t (0 : Fin 2) * 1 + 1 * a.val = a.val; omega
  | ⟨1, _⟩ => show win1_5.index t (1 : Fin 2) * 16 + 1 * k.val = k.val; omega

/-- Window 6's block at every point is the output layer's weights, whole. -/
private theorem blk6_eq (c : Dev nD) (t : Fin cfg1.N) :
    (iblk1 V c 6 t : Vec Ideal S16x16 .f32) = (V c main_arg14 : S16x16.Idx → EReal) := by
  have e0 := (idx_whole t).2.2.2.2.1.1
  have e1 := (idx_whole t).2.2.2.2.1.2
  funext j
  obtain ⟨a, k, rfl⟩ : ∃ a k, j = ix2 a k := ⟨j 0, j 1, eq_ix2 j⟩
  unfold iblk1
  rw [View.read_apply]
  show V c main_arg14 _ = V c main_arg14 _
  congr 1
  funext b; apply Fin.ext
  match b with
  | ⟨0, _⟩ => show win1_6.index t (0 : Fin 2) * 16 + 1 * a.val = a.val; omega
  | ⟨1, _⟩ => show win1_6.index t (1 : Fin 2) * 16 + 1 * k.val = k.val; omega

/-- Window 7's block at every point is the output layer's bias, whole. -/
private theorem blk7_eq (c : Dev nD) (t : Fin cfg1.N) :
    (iblk1 V c 7 t : Vec Ideal S1x16 .f32) = (V c main_v27 : S1x16.Idx → EReal) := by
  have e0 := (idx_whole t).2.2.2.2.2.1
  have e1 := (idx_whole t).2.2.2.2.2.2
  funext j
  obtain ⟨a, k, rfl⟩ : ∃ a k, j = ix2 a k := ⟨j 0, j 1, eq_ix2 j⟩
  unfold iblk1
  rw [View.read_apply]
  show V c main_v27 _ = V c main_v27 _
  congr 1
  funext b; apply Fin.ext
  match b with
  | ⟨0, _⟩ => show win1_7.index t (0 : Fin 2) * 1 + 1 * a.val = a.val; omega
  | ⟨1, _⟩ => show win1_7.index t (1 : Fin 2) * 16 + 1 * k.val = k.val; omega

/-- A whole-array function read through the output window's block at point t, at (p, q): the array at row
    2000·t + p. -/
private theorem out_blk_at (t : Fin cfg1.N) (G : S100000x16.Idx → EReal) (p : Fin 2000) (q : Fin 16) (n : Fin 100000)
    (hn : n.val = t.val * 2000 + p.val) :
    (((cfg1.win 8).blk t).view.read (Elt Ideal) G : S2000x16.Idx → EReal) (ix2 p q) = G (ix2 n q) := by
  have e0 := (idx_rows t).2.2.2.2.1
  have e1 := (idx_rows t).2.2.2.2.2
  rw [View.read_apply]
  show G _ = G _
  congr 1
  funext b; apply Fin.ext
  match b with
  | ⟨0, _⟩ => show win1_8.index t (0 : Fin 2) * 2000 + 1 * p.val = n.val; omega
  | ⟨1, _⟩ => show win1_8.index t (1 : Fin 2) * 16 + 1 * q.val = q.val; omega

/-- What point t writes back is block t of the result array. -/
private theorem flushed_eq (c : Dev nD) (t : Fin cfg1.N) :
    (dat1 (F := Ideal) V c).flushed 8 t = ((cfg1.win 8).blk t).view.read (Elt Ideal) (outArr V c) := by
  show (cfg1.win 8).cut (grid1.coords t) ((dat1 V c).after 8 t) = _
  rw [after1_8]
  unfold out1_8
  rw [View.canon_unit_zero hz]
  simp only [View.ld_unit_zero (S := S2000x16) hz, View.ld_unit_zero (S := S16x16) hz, View.ld_unit_zero (S := S32x16) hz, View.ld_unit_zero (S := S1x16) hz]
  refine funext fun (j : S2000x16.Idx) => ?_
  obtain ⟨p, q, rfl⟩ : ∃ p q, j = ix2 p q := ⟨j 0, j 1, eq_ix2 j⟩
  have hN : cfg1.N = 50 := N_1
  have ht : t.val < cfg1.N := t.isLt
  have hp : p.val < 2000 := p.isLt
  have hn : t.val * 2000 + p.val < 100000 := by omega
  refine Eq.trans ?_ (out_blk_at t (outArr V c) p q ⟨t.val * 2000 + p.val, hn⟩ rfl).symm
  rw [outArr_at]
  refine (pay1_at _ _ _ _ _ _ _ _ p q).trans ?_
  congr 1
  · funext a; exact blk0_at V c t p a _ rfl
  · funext a; exact blk1_at V c t p a _ rfl
  · funext a k; exact congrFun (blk2_eq V c t) (ix2 a k)
  · funext k; exact congrFun (blk3_eq V c t) (ix2 0 k)
  · funext a k; exact congrFun (blk4_eq V c t) (ix2 a k)
  · funext k; exact congrFun (blk5_eq V c t) (ix2 0 k)
  · funext a k; exact congrFun (blk6_eq V c t) (ix2 a k)
  · funext k; exact congrFun (blk7_eq V c t) (ix2 0 k)

/-- An index of the result array is in point t's block iff each coordinate is in the block's range on its axis. -/
private theorem mem_blk (t : Fin cfg1.N) (i : S100000x16.Idx) :
    i ∈ ((cfg1.win 8).blk t).view.set ↔ ∀ a : Fin 2, win1_8.index t a * S2000x16.size a ≤ (i a).val
      ∧ (i a).val < win1_8.index t a * S2000x16.size a + S2000x16.size a := by
  show i ∈ ((View.whole main_v28).slice (win1_8.rect t)).set ↔ _
  rw [View.set_slice_whole, Rect.mem_set_unit]
  exact Iff.rfl

/-- Every index of the result array is in some point's block: row r is in the block of point r / 2000. -/
private theorem cover (i : S100000x16.Idx) :
    ∃ t : Fin cfg1.N, (cfg1.win 8).flush t = true ∧ i ∈ ((cfg1.win 8).blk t).view.set := by
  have h0 : (i 0).val < 100000 := idx2_lt0 i
  have h1 : (i 1).val < 16 := idx2_lt1 i
  have hN : cfg1.N = 50 := N_1
  obtain ⟨t, ht⟩ : ∃ t : Fin cfg1.N, t.val = (i 0).val / 2000 := ⟨⟨(i 0).val / 2000, by omega⟩, rfl⟩
  have e0 := (idx_rows t).2.2.2.2.1
  have e1 := (idx_rows t).2.2.2.2.2
  refine ⟨t, flush1_8 t, ?_⟩
  rw [mem_blk]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 16 ≤ (i 1).val ∧ (i 1).val < win1_8.index t (1 : Fin 2) * 16 + 16
    omega

/-- The result array after the second call's fifty points. -/
theorem out_arr (c : Dev nD) : (dat1 (F := Ideal) V c).arrAt 8 cfg1.N = outArr V c :=
  (dat1 (F := Ideal) V c).arrAt_eq_of_cover 8 (outArr V c) (fun t _ => flushed_eq V c t) cover

end Cert.KernelIdeal.HandVal

end
-- ==== Proof.KI.Pay0.lean ====
/-
  Region 0's one stored value, read at an index (p, q), at the ideal values.

  The stored block is, entry by entry, an affine map of the rectified sum of three affine maps of one row of the
  [3200, 33] input block: with row = the block's row p,
      pre k = Σ_{a<16} row[a]·Wl[a,k] + Σ_{a<16} row[16+a]·Wr[a,k] + Σ_{a<1} row[32+a]·We[a,k] + bl[k]
      value (p, q) = Σ_{k<16} max(pre k, 0)·Wf[k,q] + bf[q].
  Each of the three column slices read at (p, a) is the block at (p, a), (p, 16 + a), (p, 32 + a); each matrix product
  into the zero accumulator read at (p, k) is the finite sum over the contracted axis; a [1, 16] row broadcast down the
  rows read at (p, k) is the row at (0, k); a format change is the identity on extended reals; the literal zero is 0.
  The body adds ((left + right) + edge) + bias, the grouping of the target, so nothing but these readings is used.
-/
import proofs.«178704_j60610578481378_1_alg».proof.Proof.Gen.KernelIdeal.Skeleton
import proofs.«178704_j60610578481378_1_alg».proof.Proof.Spec
import proofs.«178704_j60610578481378_1_alg».proof.Proof.LibOuterDot
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.HandVal
open Cert.KernelIdeal Cert.KernelIdeal.Gen Idealize.ShloMosaic Idealize.ShloMosaic.ValueIdx

/-- The slice of columns 0..15 of a [3200, 33] block, read at (p, a): the block at (p, a). -/
private theorem slice_left_at (x : Vec Ideal S3200x33 .f32) (h : S3200x33.Slices ![0, 0] S3200x16) (p : Fin 3200) (a : Fin 16) :
    extractStridedSlice S3200x16 ![0, 0] x h (ix2 p a) = x (ix2 p ⟨a.val, by omega⟩) := by
  refine extractStridedSlice_apply _ x h (ix2 p a) (ix2 p ⟨a.val, by omega⟩) ?_
  intro ax
  match ax with
  | ⟨0, _⟩ => show p.val = 0 + p.val; omega
  | ⟨1, _⟩ => show a.val = 0 + a.val; omega

/-- The slice of columns 16..31, read at (p, a): the block at (p, 16 + a). -/
private theorem slice_mid_at (x : Vec Ideal S3200x33 .f32) (h : S3200x33.Slices ![0, 16] S3200x16) (p : Fin 3200) (a : Fin 16) :
    extractStridedSlice S3200x16 ![0, 16] x h (ix2 p a) = x (ix2 p ⟨16 + a.val, by omega⟩) := by
  refine extractStridedSlice_apply _ x h (ix2 p a) (ix2 p ⟨16 + a.val, by omega⟩) ?_
  intro ax
  match ax with
  | ⟨0, _⟩ => show p.val = 0 + p.val; omega
  | ⟨1, _⟩ => show 16 + a.val = 16 + a.val; rfl

/-- The slice of column 32, read at (p, a): the block at (p, 32 + a). -/
private theorem slice_right_at (x : Vec Ideal S3200x33 .f32) (h : S3200x33.Slices ![0, 32] S3200x1) (p : Fin 3200) (a : Fin 1) :
    extractStridedSlice S3200x1 ![0, 32] x h (ix2 p a) = x (ix2 p ⟨32 + a.val, by omega⟩) := by
  refine extractStridedSlice_apply _ x h (ix2 p a) (ix2 p ⟨32 + a.val, by omega⟩) ?_
  intro ax
  match ax with
  | ⟨0, _⟩ => show p.val = 0 + p.val; omega
  | ⟨1, _⟩ => show 32 + a.val = 32 + a.val; rfl

/-- A [1, 16] row broadcast down 3200 rows, read at (p, q): the row at (0, q). -/
private theorem bias_at (b : Vec Ideal S1x16 .f32) (h2 : S1x16.Broadcasts S3200x16) (p : Fin 3200) (q : Fin 16) :
    broadcastTo S3200x16 b h2 (ix2 p q) = b (ix2 0 q) := by
  refine broadcastTo_apply b h2 (ix2 p q) (ix2 0 q) ?_
  intro ax
  match ax with
  | ⟨0, _⟩ => rfl
  | ⟨1, _⟩ => rfl

/-- The [3200, 16] x [16, 16] product into the zero accumulator, read at (p, q). -/
private theorem mm16_at {φ₁ φ₂ : FTy} (A : FVec Ideal S3200x16 φ₁) (B : FVec Ideal S16x16 φ₂) (p : Fin 3200) (q : Fin 16) :
    matmul dot_S3200x16_S16x16_S3200x16_1_0_0_1_n_n none A B (constant S3200x16 .f32 0x00000000#32) (ix2 p q)
      = ∑ k : Fin 16, A (ix2 p k) * B (ix2 k q) :=
  Cert.LibOuterDot.matmul_zero_ix2 dot_S3200x16_S16x16_S3200x16_1_0_0_1_n_n rfl rfl rfl rfl rfl rfl rfl rfl none A B p q

/-- The [3200, 1] x [1, 16] product into the zero accumulator, read at (p, q). -/
private theorem mm1_at {φ₁ φ₂ : FTy} (A : FVec Ideal S3200x1 φ₁) (B : FVec Ideal S1x16 φ₂) (p : Fin 3200) (q : Fin 16) :
    matmul dot_S3200x1_S1x16_S3200x16_1_0_0_1_n_n none A B (constant S3200x16 .f32 0x00000000#32) (ix2 p q)
      = ∑ k : Fin 1, A (ix2 p k) * B (ix2 k q) :=
  Cert.LibOuterDot.matmul_zero_ix2 dot_S3200x1_S1x16_S3200x16_1_0_0_1_n_n rfl rfl rfl rfl rfl rfl rfl rfl none A B p q

/-- The left contribution at (p, k): the sum over a < 16 of row p's entry a times the weight at (a, k). -/
private theorem left_at (x : Vec Ideal S3200x33 .f32) (W : Vec Ideal S16x16 .f32) (h : S3200x33.Slices ![0, 0] S3200x16)
    (hb : FTy.bits .bf16 < FTy.bits .f32) (p : Fin 3200) (k : Fin 16) :
    matmul dot_S3200x16_S16x16_S3200x16_1_0_0_1_n_n none
        (truncf (F := Ideal) .bf16 (extractStridedSlice S3200x16 ![0, 0] x h) hb) (truncf (F := Ideal) .bf16 W hb)
        (constant S3200x16 .f32 0x00000000#32) (ix2 p k)
      = ∑ a : Fin 16, x (ix2 p ⟨a.val, by omega⟩) * W (ix2 a k) := by
  rw [mm16_at]
  refine Finset.sum_congr rfl fun a _ => ?_
  rw [truncf_apply, truncf_apply, slice_left_at]

/-- The right contribution at (p, k): the sum over a < 16 of row p's entry 16 + a times the weight at (a, k). -/
private theorem mid_at (x : Vec Ideal S3200x33 .f32) (W : Vec Ideal S16x16 .f32) (h : S3200x33.Slices ![0, 16] S3200x16)
    (hb : FTy.bits .bf16 < FTy.bits .f32) (p : Fin 3200) (k : Fin 16) :
    matmul dot_S3200x16_S16x16_S3200x16_1_0_0_1_n_n none
        (truncf (F := Ideal) .bf16 (extractStridedSlice S3200x16 ![0, 16] x h) hb) (truncf (F := Ideal) .bf16 W hb)
        (constant S3200x16 .f32 0x00000000#32) (ix2 p k)
      = ∑ a : Fin 16, x (ix2 p ⟨16 + a.val, by omega⟩) * W (ix2 a k) := by
  rw [mm16_at]
  refine Finset.sum_congr rfl fun a _ => ?_
  rw [truncf_apply, truncf_apply, slice_mid_at]

/-- The edge contribution at (p, k): the sum over a < 1 of row p's entry 32 + a times the weight at (a, k). -/
private theorem right_at (x : Vec Ideal S3200x33 .f32) (W : Vec Ideal S1x16 .f32) (h : S3200x33.Slices ![0, 32] S3200x1)
    (hb : FTy.bits .bf16 < FTy.bits .f32) (p : Fin 3200) (k : Fin 16) :
    matmul dot_S3200x1_S1x16_S3200x16_1_0_0_1_n_n none
        (truncf (F := Ideal) .bf16 (extractStridedSlice S3200x1 ![0, 32] x h) hb) (truncf (F := Ideal) .bf16 W hb)
        (constant S3200x16 .f32 0x00000000#32) (ix2 p k)
      = ∑ a : Fin 1, x (ix2 p ⟨32 + a.val, by omega⟩) * W (ix2 a k) := by
  rw [mm1_at]
  refine Finset.sum_congr rfl fun a _ => ?_
  rw [truncf_apply, truncf_apply, slice_right_at]

/-- Region 0's stored value at (p, q) is the message of row p at output feature q. -/
theorem pay0_at (x0 : Vec Ideal S3200x33 .f32) (x1 : Vec Ideal S16x16 .f32) (x2 x3 : Vec Ideal S1x16 .f32) (x4 x5 : Vec Ideal S16x16 .f32) (x6 : Vec Ideal S1x16 .f32) (p : Fin 3200) (q : Fin 16) :
    k0_pay1 (F := Ideal) x0 x1 x4 x3 x5 x2 x6 (ix2 p q)
      = Cert.Spec.msgRow (fun a => x0 (ix2 p a)) (fun a k => x1 (ix2 a k)) (fun a k => x4 (ix2 a k)) (fun a k => x3 (ix2 a k)) (fun k => x2 (ix2 0 k)) (fun a k => x5 (ix2 a k)) (fun k => x6 (ix2 0 k)) q := by
  simp only [k0_pay1, Cert.Spec.msgRow, shapeCast_self]
  rw [addf_apply, mm16_at, bias_at]
  congr 1
  refine Finset.sum_congr rfl fun k _ => ?_
  rw [truncf_apply, truncf_apply, maximumf_apply, broadcast_apply, Ideal.ofBits_def, Ideal.ofBits_zero_f32,
    addf_apply, addf_apply, addf_apply, left_at, mid_at, right_at, bias_at]
  rfl

end Cert.KernelIdeal.HandVal
end
-- ==== Proof.KI.Val0.lean ====
/-
  From one grid point's block to the whole output array of the first call, at the ideal values.

  The call runs over 1000 grid points. At point t the rows' window holds rows 3200 t .. 3200 t + 3199 of the
  [3200000, 33] array of concatenated rows, the six weight and bias windows hold their whole arrays, and the output
  window's block is written back to rows 3200 t .. 3200 t + 3199 of the [3200000, 16] output array. The block written
  at point t, read at (p, q), is the message of row 3200 t + p at output feature q; row r of the output array lies in
  the block of point r / 3200, so the blocks cover the array and the array ends as the message array
      msgArr (e, q) = Σ_{k<16} max(pre_e k, 0)·Wf[k,q] + bf[q],
      pre_e k = Σ_{a<16} row_e[a]·Wl[a,k] + Σ_{a<16} row_e[16+a]·Wr[a,k] + Σ_{a<1} row_e[32+a]·We[a,k] + bl[k].
-/
import proofs.«178704_j60610578481378_1_alg».proof.Proof.KI.Region0
import proofs.«178704_j60610578481378_1_alg».proof.Proof.KI.Pay0
import Idealize.ShloMosaic.Lib.Pipeline.Value
noncomputable section
namespace Cert.KernelIdeal.HandVal
open Cert.KernelIdeal Cert.KernelIdeal.Gen Cert.KernelIdeal.Hand Idealize.ShloMosaic Idealize.ShloMosaic.TcCoe Idealize.ShloMosaic.ValueIdx
variable (V : (c : Dev nD) → (b : Ref sig .tc) → Buf (Elt Ideal) ((c : Thread nD τ).loc b))

/-- The message array: row e, feature q is the message of row e of the concatenated rows at output feature q. -/
def msgArr (c : Dev nD) : Buf (Elt Ideal) ((cfg0.win 7).arr.view.loc (c.tc : Thread nD τ)) :=
  fun i : S3200000x16.Idx => (Cert.Spec.msgRow
    (fun a => (V c main_v18 : S3200000x33.Idx → EReal) (ix2 (i 0) a))
    (fun a k => (V c main_arg4 : S16x16.Idx → EReal) (ix2 a k))
    (fun a k => (V c main_arg7 : S16x16.Idx → EReal) (ix2 a k))
    (fun a k => (V c main_arg6 : S1x16.Idx → EReal) (ix2 a k))
    (fun k => (V c main_v19 : S1x16.Idx → EReal) (ix2 0 k))
    (fun a k => (V c main_arg8 : S16x16.Idx → EReal) (ix2 a k))
    (fun k => (V c main_v20 : S1x16.Idx → EReal) (ix2 0 k)) (i 1) : EReal)

theorem msgArr_at (c : Dev nD) (e : Fin 3200000) (q : Fin 16) : msgArr V c (ix2 e q) = Cert.Spec.msgRow (fun a => (V c main_v18 : S3200000x33.Idx → EReal) (ix2 e a)) (fun a k => (V c main_arg4 : S16x16.Idx → EReal) (ix2 a k)) (fun a k => (V c main_arg7 : S16x16.Idx → EReal) (ix2 a k)) (fun a k => (V c main_arg6 : S1x16.Idx → EReal) (ix2 a k)) (fun k => (V c main_v19 : S1x16.Idx → EReal) (ix2 0 k)) (fun a k => (V c main_arg8 : S16x16.Idx → EReal) (ix2 a k)) (fun k => (V c main_v20 : S1x16.Idx → EReal) (ix2 0 k)) q := rfl

/-- The zero offsets, as a constant function. -/
private theorem hz0 : (![0, 0] : Fin 2 → Nat) = fun _ => 0 := funext fun a => by fin_cases a <;> rfl

/-- The index maps over the grid: the rows' and the output's block index at point t is (t, 0); every other
    window's is (0, 0). -/
private theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- A grid point is below 1000. -/
private theorem lt_N0 (t : Fin cfg0.N) : t.val < 1000 := lt_of_lt_of_eq t.isLt N_0

/-- The rows' block at point t, read at (p, a): the array at (3200 t + p, a). -/
private theorem rows_at (c : Dev nD) (t : Fin cfg0.N) (p : Fin 3200) (a : Fin 33) (h : t.val * 3200 + p.val < 3200000) :
    (iblk0 V c 0 t : Vec Ideal S3200x33 .f32) (ix2 p a) = (V c main_v18 : S3200000x33.Idx → EReal) (ix2 ⟨t.val * 3200 + p.val, h⟩ a) := by
  show V c main_v18 (((cfg0.win 0).blk t).view.emb (ix2 p a)) = V c main_v18 _
  congr 1
  funext ax; apply Fin.ext
  match ax with
  | ⟨0, _⟩ => show win0_0.index t (0 : Fin 2) * 3200 + 1 * p.val = t.val * 3200 + p.val; rw [(idx_facts0 t).1.1]; omega
  | ⟨1, _⟩ => show win0_0.index t (1 : Fin 2) * 33 + 1 * a.val = a.val; rw [(idx_facts0 t).1.2]; omega

/-- Window 1's block at any point is its whole array. -/
private theorem w1_at (c : Dev nD) (t : Fin cfg0.N) (a : Fin 16) (k : Fin 16) :
    (iblk0 V c 1 t : Vec Ideal S16x16 .f32) (ix2 a k) = (V c main_arg4 : S16x16.Idx → EReal) (ix2 a k) := by
  show V c main_arg4 (((cfg0.win 1).blk t).view.emb (ix2 a k)) = V c main_arg4 _
  congr 1
  funext ax; apply Fin.ext
  match ax with
  | ⟨0, _⟩ => show win0_1.index t (0 : Fin 2) * 16 + 1 * a.val = a.val; rw [(idx_facts0 t).2.1.1]; omega
  | ⟨1, _⟩ => show win0_1.index t (1 : Fin 2) * 16 + 1 * k.val = k.val; rw [(idx_facts0 t).2.1.2]; omega

/-- Window 2's block at any point is its whole array. -/
private theorem w2_at (c : Dev nD) (t : Fin cfg0.N) (a : Fin 1) (k : Fin 16) :
    (iblk0 V c 2 t : Vec Ideal S1x16 .f32) (ix2 a k) = (V c main_v19 : S1x16.Idx → EReal) (ix2 a k) := by
  show V c main_v19 (((cfg0.win 2).blk t).view.emb (ix2 a k)) = V c main_v19 _
  congr 1
  funext ax; apply Fin.ext
  match ax with
  | ⟨0, _⟩ => show win0_2.index t (0 : Fin 2) * 1 + 1 * a.val = a.val; rw [(idx_facts0 t).2.2.1.1]; omega
  | ⟨1, _⟩ => show win0_2.index t (1 : Fin 2) * 16 + 1 * k.val = k.val; rw [(idx_facts0 t).2.2.1.2]; omega

/-- Window 3's block at any point is its whole array. -/
private theorem w3_at (c : Dev nD) (t : Fin cfg0.N) (a : Fin 1) (k : Fin 16) :
    (iblk0 V c 3 t : Vec Ideal S1x16 .f32) (ix2 a k) = (V c main_arg6 : S1x16.Idx → EReal) (ix2 a k) := by
  show V c main_arg6 (((cfg0.win 3).blk t).view.emb (ix2 a k)) = V c main_arg6 _
  congr 1
  funext ax; apply Fin.ext
  match ax with
  | ⟨0, _⟩ => show win0_3.index t (0 : Fin 2) * 1 + 1 * a.val = a.val; rw [(idx_facts0 t).2.2.2.1.1]; omega
  | ⟨1, _⟩ => show win0_3.index t (1 : Fin 2) * 16 + 1 * k.val = k.val; rw [(idx_facts0 t).2.2.2.1.2]; omega

/-- Window 4's block at any point is its whole array. -/
private theorem w4_at (c : Dev nD) (t : Fin cfg0.N) (a : Fin 16) (k : Fin 16) :
    (iblk0 V c 4 t : Vec Ideal S16x16 .f32) (ix2 a k) = (V c main_arg7 : S16x16.Idx → EReal) (ix2 a k) := by
  show V c main_arg7 (((cfg0.win 4).blk t).view.emb (ix2 a k)) = V c main_arg7 _
  congr 1
  funext ax; apply Fin.ext
  match ax with
  | ⟨0, _⟩ => show win0_4.index t (0 : Fin 2) * 16 + 1 * a.val = a.val; rw [(idx_facts0 t).2.2.2.2.1.1]; omega
  | ⟨1, _⟩ => show win0_4.index t (1 : Fin 2) * 16 + 1 * k.val = k.val; rw [(idx_facts0 t).2.2.2.2.1.2]; omega

/-- Window 5's block at any point is its whole array. -/
private theorem w5_at (c : Dev nD) (t : Fin cfg0.N) (a : Fin 16) (k : Fin 16) :
    (iblk0 V c 5 t : Vec Ideal S16x16 .f32) (ix2 a k) = (V c main_arg8 : S16x16.Idx → EReal) (ix2 a k) := by
  show V c main_arg8 (((cfg0.win 5).blk t).view.emb (ix2 a k)) = V c main_arg8 _
  congr 1
  funext ax; apply Fin.ext
  match ax with
  | ⟨0, _⟩ => show win0_5.index t (0 : Fin 2) * 16 + 1 * a.val = a.val; rw [(idx_facts0 t).2.2.2.2.2.1.1]; omega
  | ⟨1, _⟩ => show win0_5.index t (1 : Fin 2) * 16 + 1 * k.val = k.val; rw [(idx_facts0 t).2.2.2.2.2.1.2]; omega

/-- Window 6's block at any point is its whole array. -/
private theorem w6_at (c : Dev nD) (t : Fin cfg0.N) (a : Fin 1) (k : Fin 16) :
    (iblk0 V c 6 t : Vec Ideal S1x16 .f32) (ix2 a k) = (V c main_v20 : S1x16.Idx → EReal) (ix2 a k) := by
  show V c main_v20 (((cfg0.win 6).blk t).view.emb (ix2 a k)) = V c main_v20 _
  congr 1
  funext ax; apply Fin.ext
  match ax with
  | ⟨0, _⟩ => show win0_6.index t (0 : Fin 2) * 1 + 1 * a.val = a.val; rw [(idx_facts0 t).2.2.2.2.2.2.1.1]; omega
  | ⟨1, _⟩ => show win0_6.index t (1 : Fin 2) * 16 + 1 * k.val = k.val; rw [(idx_facts0 t).2.2.2.2.2.2.1.2]; omega

/-- The output's block at point t sits at rows 3200 t .. 3200 t + 3199 of the array. -/
private theorem out_emb (t : Fin cfg0.N) (p : Fin 3200) (q : Fin 16) (h : t.val * 3200 + p.val < 3200000) :
    ((cfg0.win 7).blk t).view.emb (ix2 p q) = (ix2 ⟨t.val * 3200 + p.val, h⟩ q : S3200000x16.Idx) := by
  funext ax; apply Fin.ext
  match ax with
  | ⟨0, _⟩ => show win0_7.index t (0 : Fin 2) * 3200 + 1 * p.val = t.val * 3200 + p.val; rw [(idx_facts0 t).2.2.2.2.2.2.2.1]; omega
  | ⟨1, _⟩ => show win0_7.index t (1 : Fin 2) * 16 + 1 * q.val = q.val; rw [(idx_facts0 t).2.2.2.2.2.2.2.2]; omega

/-- The body's arithmetic on point t's input blocks, read at (p, q): the message array at (3200 t + p, q). -/
private theorem pay_block (c : Dev nD) (t : Fin cfg0.N) (p : Fin 3200) (q : Fin 16) (h : t.val * 3200 + p.val < 3200000) :
    k0_pay1 (F := Ideal) (iblk0 V c 0 t) (iblk0 V c 1 t) (iblk0 V c 4 t) (iblk0 V c 3 t) (iblk0 V c 5 t) (iblk0 V c 2 t)
        (iblk0 V c 6 t) (ix2 p q)
      = msgArr V c (ix2 ⟨t.val * 3200 + p.val, h⟩ q) := by
  rw [pay0_at, msgArr_at]
  simp only [fun a => rows_at V c t p a h, w1_at, w2_at, w3_at, w4_at, w5_at, w6_at]

/-- The same at any index of the block: the message array under the block's place in the array. -/
private theorem block_eq (c : Dev nD) (t : Fin cfg0.N) (j : S3200x16.Idx) :
    k0_pay1 (F := Ideal) (iblk0 V c 0 t) (iblk0 V c 1 t) (iblk0 V c 4 t) (iblk0 V c 3 t) (iblk0 V c 5 t) (iblk0 V c 2 t)
        (iblk0 V c 6 t) j
      = msgArr V c (((cfg0.win 7).blk t).view.emb j) := by
  obtain ⟨p, q, rfl⟩ : ∃ (p : Fin 3200) (q : Fin 16), j = ix2 p q := ⟨j 0, j 1, eq_ix2 j⟩
  have h : t.val * 3200 + p.val < 3200000 := by have := lt_N0 t; have := p.isLt; omega
  rw [pay_block V c t p q h, out_emb t p q h]

/-- What point t writes back is its block of the message array. -/
private theorem flushed_eq0 (c : Dev nD) (t : Fin cfg0.N) :
    (dat0 (F := Ideal) V c).flushed 7 t = ((cfg0.win 7).blk t).view.read (Elt Ideal) (msgArr V c) := by
  show (cfg0.win 7).cut (grid0.coords t) ((dat0 V c).after 7 t) = _
  rw [after0_7]
  unfold out0_7
  rw [View.canon_unit_zero hz0]
  simp only [View.ld_unit_zero (S := S3200x33) hz0, View.ld_unit_zero (S := S16x16) hz0, View.ld_unit_zero (S := S1x16) hz0]
  funext j
  exact block_eq V c t j

/-- An index of the array is in point t's block iff each coordinate is in the block's range on its axis. -/
private theorem mem_blk0 (t : Fin cfg0.N) (i : S3200000x16.Idx) :
    i ∈ ((cfg0.win 7).blk t).view.set ↔ ∀ a : Fin 2, win0_7.index t a * S3200x16.size a ≤ (i a).val
      ∧ (i a).val < win0_7.index t a * S3200x16.size a + S3200x16.size a := by
  show i ∈ ((View.whole main_v21).slice (win0_7.rect t)).set ↔ _
  rw [View.set_slice_whole, Rect.mem_set_unit]
  exact Iff.rfl

/-- Row r of the array is in the block of point r / 3200. -/
private theorem cover0 (i : S3200000x16.Idx) :
    ∃ t : Fin cfg0.N, (cfg0.win 7).flush t = true ∧ i ∈ ((cfg0.win 7).blk t).view.set := by
  have hi0 : (i 0).val < 3200000 := (i 0).isLt
  have hi1 : (i 1).val < 16 := (i 1).isLt
  have hlt : (i 0).val / 3200 < 1000 := by omega
  obtain ⟨t, ht⟩ : ∃ t : Fin cfg0.N, t.val = (i 0).val / 3200 := ⟨⟨(i 0).val / 3200, lt_of_lt_of_eq hlt N_0.symm⟩, rfl⟩
  refine ⟨t, flush0_7 t, ?_⟩
  rw [mem_blk0]
  intro a
  obtain ⟨e0, e1⟩ := (idx_facts0 t).2.2.2.2.2.2.2
  match a with
  | ⟨0, _⟩ =>
    show win0_7.index t (0 : Fin 2) * 3200 ≤ (i 0).val ∧ (i 0).val < win0_7.index t (0 : Fin 2) * 3200 + 3200
    rw [e0, ht]
    omega
  | ⟨1, _⟩ =>
    show win0_7.index t (1 : Fin 2) * 16 ≤ (i 1).val ∧ (i 1).val < win0_7.index t (1 : Fin 2) * 16 + 16
    rw [e1]
    omega

/-- The output array of the first call after its 1000 points is the message array. -/
theorem msgs_arr (c : Dev nD) : (dat0 (F := Ideal) V c).arrAt 7 cfg0.N = msgArr V c :=
  (dat0 V c).arrAt_eq_of_cover 7 (msgArr V c) (fun t _ => flushed_eq0 V c t) (fun i => cover0 i)

end Cert.KernelIdeal.HandVal
end
-- ==== Proof.Concat3.lean ====
/-
  A row-wise concatenation of three blocks of widths 16, 16 and 1 along the column axis, read at (e, a): the first
  block at column a when a < 16, the second at column a − 16 when 16 ≤ a < 32, the third at column a − 32 otherwise —
  the row `Cert.Spec.catRow` assembles from the three blocks' rows.
-/
import proofs.«178704_j60610578481378_1_alg».proof.Proof.Spec
import Idealize.ShloMosaic.Lib.ValueIdx
import Idealize.ShloMosaic.Lib.Pipeline.Value

noncomputable section

namespace Cert.Concat3

open Idealize.ShloMosaic Idealize.ShloMosaic.ValueIdx

theorem concat3_at (R : Nat) (A B : (⟨2, ![R, 16]⟩ : Shape).Idx → EReal) (C : (⟨2, ![R, 1]⟩ : Shape).Idx → EReal)
    (h : Shape.Concatenates [(⟨2, ![R, 16]⟩ : Shape), ⟨2, ![R, 16]⟩, ⟨2, ![R, 1]⟩] ⟨2, ![R, 33]⟩ 1) (e : Fin R) (a : Fin 33) :
    concatenate (⟨2, ![R, 33]⟩ : Shape) 1 [⟨⟨2, ![R, 16]⟩, A⟩, ⟨⟨2, ![R, 16]⟩, B⟩, ⟨⟨2, ![R, 1]⟩, C⟩] h (ix2 e a)
      = Cert.Spec.catRow (fun a => A (ix2 e a)) (fun a => B (ix2 e a)) (fun a => C (ix2 e a)) a := by
  unfold Cert.Spec.catRow
  by_cases h1 : a.val < 16
  · rw [dif_pos h1]
    refine concatenate_apply_piece (t := (⟨2, ![R, 33]⟩ : Shape)) (1 : Fin 2) [⟨⟨2, ![R, 16]⟩, A⟩, ⟨⟨2, ![R, 16]⟩, B⟩, ⟨⟨2, ![R, 1]⟩, C⟩] h (ix2 e a) 0 (by simp) _ A rfl rfl 0 rfl (ix2 e ⟨a.val, h1⟩) ?_ ?_
    · intro b hb
      match b with
      | ⟨0, _⟩ => rfl
      | ⟨1, _⟩ => exact absurd rfl hb
    · show 0 + a.val = a.val
      omega
  · rw [dif_neg h1]
    by_cases h2 : a.val < 32
    · rw [dif_pos h2]
      refine concatenate_apply_piece (t := (⟨2, ![R, 33]⟩ : Shape)) (1 : Fin 2) [⟨⟨2, ![R, 16]⟩, A⟩, ⟨⟨2, ![R, 16]⟩, B⟩, ⟨⟨2, ![R, 1]⟩, C⟩] h (ix2 e a) 1 (by simp) _ B rfl rfl 16 rfl (ix2 e ⟨a.val - 16, by omega⟩) ?_ ?_
      · intro b hb
        match b with
        | ⟨0, _⟩ => rfl
        | ⟨1, _⟩ => exact absurd rfl hb
      · show 16 + (a.val - 16) = a.val
        omega
    · rw [dif_neg h2]
      refine concatenate_apply_piece (t := (⟨2, ![R, 33]⟩ : Shape)) (1 : Fin 2) [⟨⟨2, ![R, 16]⟩, A⟩, ⟨⟨2, ![R, 16]⟩, B⟩, ⟨⟨2, ![R, 1]⟩, C⟩] h (ix2 e a) 2 (by simp) _ C rfl rfl 32 rfl (ix2 e ⟨a.val - 32, by omega⟩) ?_ ?_
      · intro b hb
        match b with
        | ⟨0, _⟩ => rfl
        | ⟨1, _⟩ => exact absurd rfl hb
      · show 32 + (a.val - 32) = a.val
        omega

end Cert.Concat3

end
-- ==== Proof.RefVal.lean ====
/-
  The reference program's result, read at an index over the extended reals.

  The reference gathers the left and right node features of every edge, forms each edge's message as an affine map of
  the rectified sum of three affine maps (left features, edge feature, right features), adds every message into the
  row of the right node it points at, and sends each node's 16 sums, rectified and mapped affinely, together with the
  node's own 16 features through a rectified affine layer and a final affine layer. The two gathers and the
  scatter-add stay opaque arrays here; everything around them is read element by element:
    * an edge's message at feature q is the specification's message row of the edge's 33 numbers;
    * a node's result at feature q is the specification's output row of the node's 16 sums and its 16 features.
-/
import proofs.«178704_j60610578481378_1_alg».proof.Proof.Gen.ReferenceIdeal.Run
import proofs.«178704_j60610578481378_1_alg».proof.Proof.Gen.ReferenceIdeal.Read
import proofs.«178704_j60610578481378_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Cert.ReferenceIdeal Cert.ReferenceIdeal.Gen Idealize.ShloMosaic Idealize.ShloMosaic.TcCoe Idealize.ShloMosaic.ValueIdx

open scoped BigOperators

/-- The left node's features of every edge: row e is the left-feature row that edge e's first endpoint names. -/
def refLg (m : (ℓ : Loc nD τ sig) → Buf (Elt Ideal) ℓ) (c : Dev nD) : FVec Ideal S3200000x16 .f32 :=
  Host.gather gather_S100000x16_S3200000x1_S3200000x16_1_0_n_n_0_1_116 (m ((c.tc : Thread nD τ).loc main_arg0) : FVec Ideal S100000x16 .f32) (broadcastInDim S3200000x1 ![0] bcast_S3200000_S3200000x1_0 (select (cmpi .slt (shapeCast _ (extractStridedSlice S1x3200000 ![0, 0] (m ((c.tc : Thread nD τ).loc main_arg1)) slices_S2x3200000_S1x3200000_0_0) shapeCasts_S1x3200000_S3200000) (broadcastInDim S3200000 ![] bcast_S_S3200000 (constantI S_ 32 0#32))) (addi (shapeCast _ (extractStridedSlice S1x3200000 ![0, 0] (m ((c.tc : Thread nD τ).loc main_arg1)) slices_S2x3200000_S1x3200000_0_0) shapeCasts_S1x3200000_S3200000) (broadcastInDim S3200000 ![] bcast_S_S3200000 (constantI S_ 32 100000#32))) (shapeCast _ (extractStridedSlice S1x3200000 ![0, 0] (m ((c.tc : Thread nD τ).loc main_arg1)) slices_S2x3200000_S1x3200000_0_0) shapeCasts_S1x3200000_S3200000)))

/-- The right node's features of every edge: row e is the right-feature row that edge e's second endpoint names. -/
def refRg (m : (ℓ : Loc nD τ sig) → Buf (Elt Ideal) ℓ) (c : Dev nD) : FVec Ideal S3200000x16 .f32 :=
  Host.gather gather_S100000x16_S3200000x1_S3200000x16_1_0_n_n_0_1_116 (m ((c.tc : Thread nD τ).loc main_arg3) : FVec Ideal S100000x16 .f32) (broadcastInDim S3200000x1 ![0] bcast_S3200000_S3200000x1_0 (select (cmpi .slt (shapeCast _ (extractStridedSlice S1x3200000 ![1, 0] (m ((c.tc : Thread nD τ).loc main_arg1)) slices_S2x3200000_S1x3200000_1_0) shapeCasts_S1x3200000_S3200000) (broadcastInDim S3200000 ![] bcast_S_S3200000 (constantI S_ 32 0#32))) (addi (shapeCast _ (extractStridedSlice S1x3200000 ![1, 0] (m ((c.tc : Thread nD τ).loc main_arg1)) slices_S2x3200000_S1x3200000_1_0) shapeCasts_S1x3200000_S3200000) (broadcastInDim S3200000 ![] bcast_S_S3200000 (constantI S_ 32 100000#32))) (shapeCast _ (extractStridedSlice S1x3200000 ![1, 0] (m ((c.tc : Thread nD τ).loc main_arg1)) slices_S2x3200000_S1x3200000_1_0) shapeCasts_S1x3200000_S3200000)))

/-- Every edge's message: relu(((Lg·W_left + b_left) + x_edge·W_edge) + Rg·W_right)·W_final + b_final. -/
def refMsg (m : (ℓ : Loc nD τ sig) → Buf (Elt Ideal) ℓ) (c : Dev nD) : FVec Ideal S3200000x16 .f32 :=
  addf (Host.dotGeneral (φ₁ := .f32) (φ₂ := .f32) dot_S3200000x16_S16x16_S3200000x16_1_0_0_1_n_n none (maximumf (addf (addf (addf (Host.dotGeneral (φ₁ := .f32) (φ₂ := .f32) dot_S3200000x16_S16x16_S3200000x16_1_0_0_1_n_n none (refLg m c) (m ((c.tc : Thread nD τ).loc main_arg4) : FVec Ideal S16x16 .f32)) (broadcastInDim S3200000x16 ![0, 1] bcast_S1x16_S3200000x16_0_1 (broadcastInDim S1x16 ![1] bcast_S16_S1x16_1 (m ((c.tc : Thread nD τ).loc main_arg5) : FVec Ideal S16 .f32)))) (Host.dotGeneral (φ₁ := .f32) (φ₂ := .f32) dot_S3200000x1_S1x16_S3200000x16_1_0_0_1_n_n none (m ((c.tc : Thread nD τ).loc main_arg2) : FVec Ideal S3200000x1 .f32) (m ((c.tc : Thread nD τ).loc main_arg6) : FVec Ideal S1x16 .f32))) (Host.dotGeneral (φ₁ := .f32) (φ₂ := .f32) dot_S3200000x16_S16x16_S3200000x16_1_0_0_1_n_n none (refRg m c) (m ((c.tc : Thread nD τ).loc main_arg7) : FVec Ideal S16x16 .f32))) (broadcastInDim S3200000x16 ![] bcast_S_S3200000x16 (constant S_ .f32 0x00000000#32))) (m ((c.tc : Thread nD τ).loc main_arg8) : FVec Ideal S16x16 .f32)) (broadcastInDim S3200000x16 ![0, 1] bcast_S1x16_S3200000x16_0_1 (broadcastInDim S1x16 ![1] bcast_S16_S1x16_1 (m ((c.tc : Thread nD τ).loc main_arg9) : FVec Ideal S16 .f32)))

/-- The row of the sum array each edge's message is added into: the edge's second endpoint. -/
def refIdx (m : (ℓ : Loc nD τ sig) → Buf (Elt Ideal) ℓ) (c : Dev nD) : (⟨S3200000x1, .i32⟩ : BufTy).Contents (Elt Ideal) :=
  broadcastInDim S3200000x1 ![0] bcast_S3200000_S3200000x1_0 (shapeCast _ (extractStridedSlice S1x3200000 ![1, 0] (m ((c.tc : Thread nD τ).loc main_arg1)) slices_S2x3200000_S1x3200000_1_0) shapeCasts_S1x3200000_S3200000)

/-- The sum array before any message is added: all zeros. -/
def refZero : FVec Ideal S100000x16 .f32 := broadcastInDim S100000x16 ![] bcast_S_S100000x16 (constant S_ .f32 0x00000000#32)

/-- Every right node's 16 sums of the messages that point at it. -/
def refAgg (m : (ℓ : Loc nD τ sig) → Buf (Elt Ideal) ℓ) (c : Dev nD) : FVec Ideal S100000x16 .f32 :=
  Host.scatterAdd scatter_S100000x16_S3200000x1_S3200000x16_1_0_0_1 refZero (refIdx m c) (refMsg m c)

/-! ### The stages of the program that stay opaque are the arrays named above -/

private theorem lg_eq (m : (ℓ : Loc nD τ sig) → Buf (Elt Ideal) ℓ) (c : Dev nD) : Read.val_main_v10 (F := Ideal) (m ((c.tc : Thread nD τ).loc main_arg0) : FVec Ideal S100000x16 .f32) (m ((c.tc : Thread nD τ).loc main_arg1)) = refLg m c := rfl

private theorem rg_eq (m : (ℓ : Loc nD τ sig) → Buf (Elt Ideal) ℓ) (c : Dev nD) : Read.val_main_v22 (F := Ideal) (m ((c.tc : Thread nD τ).loc main_arg1)) (m ((c.tc : Thread nD τ).loc main_arg3) : FVec Ideal S100000x16 .f32) = refRg m c := rfl

private theorem msg_eq (m : (ℓ : Loc nD τ sig) → Buf (Elt Ideal) ℓ) (c : Dev nD) : Read.val_main_v30 (F := Ideal) (m ((c.tc : Thread nD τ).loc main_arg0) : FVec Ideal S100000x16 .f32) (m ((c.tc : Thread nD τ).loc main_arg1)) (m ((c.tc : Thread nD τ).loc main_arg2) : FVec Ideal S3200000x1 .f32) (m ((c.tc : Thread nD τ).loc main_arg3) : FVec Ideal S100000x16 .f32) (m ((c.tc : Thread nD τ).loc main_arg4) : FVec Ideal S16x16 .f32) (m ((c.tc : Thread nD τ).loc main_arg5) : FVec Ideal S16 .f32) (m ((c.tc : Thread nD τ).loc main_arg6) : FVec Ideal S1x16 .f32) (m ((c.tc : Thread nD τ).loc main_arg7) : FVec Ideal S16x16 .f32) (m ((c.tc : Thread nD τ).loc main_arg8) : FVec Ideal S16x16 .f32) (m ((c.tc : Thread nD τ).loc main_arg9) : FVec Ideal S16 .f32) = refMsg m c := rfl

private theorem agg_eq (m : (ℓ : Loc nD τ sig) → Buf (Elt Ideal) ℓ) (c : Dev nD) : Read.val_main_v33 (F := Ideal) (m ((c.tc : Thread nD τ).loc main_arg0) : FVec Ideal S100000x16 .f32) (m ((c.tc : Thread nD τ).loc main_arg1)) (m ((c.tc : Thread nD τ).loc main_arg2) : FVec Ideal S3200000x1 .f32) (m ((c.tc : Thread nD τ).loc main_arg3) : FVec Ideal S100000x16 .f32) (m ((c.tc : Thread nD τ).loc main_arg4) : FVec Ideal S16x16 .f32) (m ((c.tc : Thread nD τ).loc main_arg5) : FVec Ideal S16 .f32) (m ((c.tc : Thread nD τ).loc main_arg6) : FVec Ideal S1x16 .f32) (m ((c.tc : Thread nD τ).loc main_arg7) : FVec Ideal S16x16 .f32) (m ((c.tc : Thread nD τ).loc main_arg8) : FVec Ideal S16x16 .f32) (m ((c.tc : Thread nD τ).loc main_arg9) : FVec Ideal S16 .f32) = refAgg m c := rfl

/-! ### The index maps of the contractions and broadcasts, at an index given by its coordinates -/

private theorem lidx35 (n : Fin 100000) (q k : Fin 16) : Read.lidx_main_v35 (ix2 n q) k = ix2 n k := funext fun a => by match a with | ⟨0, _⟩ => rfl | ⟨1, _⟩ => rfl
private theorem ridx35 (n : Fin 100000) (q k : Fin 16) : Read.ridx_main_v35 (ix2 n q) k = ix2 k q := funext fun a => by match a with | ⟨0, _⟩ => rfl | ⟨1, _⟩ => rfl
private theorem lidx40 (n : Fin 100000) (q : Fin 16) (k : Fin 32) : Read.lidx_main_v40 (ix2 n q) k = ix2 n k := funext fun a => by match a with | ⟨0, _⟩ => rfl | ⟨1, _⟩ => rfl
private theorem ridx40 (n : Fin 100000) (q : Fin 16) (k : Fin 32) : Read.ridx_main_v40 (ix2 n q) k = ix2 k q := funext fun a => by match a with | ⟨0, _⟩ => rfl | ⟨1, _⟩ => rfl
private theorem lidx45 (n : Fin 100000) (q k : Fin 16) : Read.lidx_main_v45 (ix2 n q) k = ix2 n k := funext fun a => by match a with | ⟨0, _⟩ => rfl | ⟨1, _⟩ => rfl
private theorem ridx45 (n : Fin 100000) (q k : Fin 16) : Read.ridx_main_v45 (ix2 n q) k = ix2 k q := funext fun a => by match a with | ⟨0, _⟩ => rfl | ⟨1, _⟩ => rfl

/-- A bias row broadcast over the nodes reads the bias at the column. -/
private theorem bias37 (x11 : (⟨S16, .f32⟩ : BufTy).Contents (Elt Ideal)) (n : Fin 100000) (q : Fin 16) :
    Read.val_main_v37 (F := Ideal) x11 (ix2 n q) = x11 (ix1 q) := by
  rw [Read.val_main_v37_apply, Read.val_main_v36_apply]
  exact congrArg x11 (funext fun a => by match a with | ⟨0, _⟩ => rfl)
private theorem bias42 (x13 : (⟨S16, .f32⟩ : BufTy).Contents (Elt Ideal)) (n : Fin 100000) (q : Fin 16) :
    Read.val_main_v42 (F := Ideal) x13 (ix2 n q) = x13 (ix1 q) := by
  rw [Read.val_main_v42_apply, Read.val_main_v41_apply]
  exact congrArg x13 (funext fun a => by match a with | ⟨0, _⟩ => rfl)
private theorem bias47 (x15 : (⟨S16, .f32⟩ : BufTy).Contents (Elt Ideal)) (n : Fin 100000) (q : Fin 16) :
    Read.val_main_v47 (F := Ideal) x15 (ix2 n q) = x15 (ix1 q) := by
  rw [Read.val_main_v47_apply, Read.val_main_v46_apply]
  exact congrArg x15 (funext fun a => by match a with | ⟨0, _⟩ => rfl)

/-- The constant a rectifier compares with is zero. -/
private theorem zero1 (i : S100000x16.Idx) : Read.val_main_call1_v0 (F := Ideal) i = (0 : EReal) := by
  rw [Read.val_main_call1_v0_apply, Read.val_main_call1_cst_apply]
  exact Ideal.ofBits_zero_f32
private theorem zero2 (i : S100000x16.Idx) : Read.val_main_call2_v0 (F := Ideal) i = (0 : EReal) := by
  rw [Read.val_main_call2_v0_apply, Read.val_main_call2_cst_apply]
  exact Ideal.ofBits_zero_f32

/-! ### A node's result from its 16 sums and its 16 features -/

/-- The post-convolution features of node n: the rectified sums through W_post, plus b_post. -/
private theorem post_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal)) (n : Fin 100000) (k : Fin 16) :
    Read.val_main_v38 (F := Ideal) x0 x1 x2 x3 x4 x5 x6 x7 x8 x9 x10 x11 (ix2 n k)
      = Cert.Spec.post (fun a => Read.val_main_v33 (F := Ideal) x0 x1 x2 x3 x4 x5 x6 x7 x8 x9 (ix2 n a)) (fun a k => x10 (ix2 a k)) (fun k => x11 (ix1 k)) k := by
  rw [Read.val_main_v38_apply, Read.val_main_v35_apply, bias37, Ideal.addf_def, Cert.Spec.post]
  refine congrArg₂ (· + ·) (Finset.sum_congr rfl fun a _ => ?_) rfl
  rw [Read.val_main_v34_apply, zero1, Ideal.maximumf_def, lidx35, ridx35]

/-- The 32 inputs of the output layer at column a: a post-convolution feature for a < 16, else the node's own feature. -/
private theorem cat_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal)) (n : Fin 100000) (a : Fin 32) :
    Read.val_main_v39 (F := Ideal) x0 x1 x2 x3 x4 x5 x6 x7 x8 x9 x10 x11 (ix2 n a) = Cert.Spec.cat (fun a => Read.val_main_v33 (F := Ideal) x0 x1 x2 x3 x4 x5 x6 x7 x8 x9 (ix2 n a)) (fun a => x3 (ix2 n a)) (fun a k => x10 (ix2 a k)) (fun k => x11 (ix1 k)) a := by
  rw [Read.val_main_v39, Cert.Spec.cat]
  by_cases h : a.val < 16
  · rw [dif_pos h]
    refine (concatenate_pair_apply_left (t := S100000x32) (s₁ := S100000x16) (s₂ := S100000x16) (1 : Fin 2) _ _
      concatenates_S100000x16_S100000x16_S100000x32_d1 (ix2 n a) rfl (ix2 n ⟨a.val, h⟩)
      (fun b => by match b with | ⟨0, _⟩ => rfl | ⟨1, _⟩ => rfl)).trans ?_
    exact post_aux x0 x1 x2 x3 x4 x5 x6 x7 x8 x9 x10 x11 n ⟨a.val, h⟩
  · rw [dif_neg h]
    exact concatenate_pair_apply_right (t := S100000x32) (s₁ := S100000x16) (s₂ := S100000x16) (1 : Fin 2) _ _
      concatenates_S100000x16_S100000x16_S100000x32_d1 (ix2 n a) rfl rfl (ix2 n ⟨a.val - 16, by omega⟩)
      (fun b hb => by match b with | ⟨0, _⟩ => rfl | ⟨1, _⟩ => exact absurd rfl hb)
      (by show (a.val - 16) + 16 = a.val; omega)

/-- The hidden layer of the output map. -/
private theorem h1_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (n : Fin 100000) (k : Fin 16) :
    Read.val_main_v43 (F := Ideal) x0 x1 x2 x3 x4 x5 x6 x7 x8 x9 x10 x11 x12 x13 (ix2 n k)
      = Cert.Spec.h1 (fun a => Read.val_main_v33 (F := Ideal) x0 x1 x2 x3 x4 x5 x6 x7 x8 x9 (ix2 n a)) (fun a => x3 (ix2 n a)) (fun a k => x10 (ix2 a k)) (fun k => x11 (ix1 k)) (fun a k => x12 (ix2 a k)) (fun k => x13 (ix1 k)) k := by
  rw [Read.val_main_v43_apply, Read.val_main_v40_apply, bias42, Ideal.addf_def, Cert.Spec.h1]
  refine congrArg₂ (· + ·) (Finset.sum_congr rfl fun a _ => ?_) rfl
  rw [lidx40, ridx40, cat_aux]

/-- A node's result at feature q is the specification's output row. -/
private theorem out_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal)) (x12 : (⟨S32x16, .f32⟩ : BufTy).Contents (Elt Ideal)) (x13 : (⟨S16, .f32⟩ : BufTy).Contents (Elt Ideal)) (x14 : (⟨S16x16, .f32⟩ : BufTy).Contents (Elt Ideal)) (x15 : (⟨S16, .f32⟩ : BufTy).Contents (Elt Ideal)) (n : Fin 100000) (q : Fin 16) :
    Read.val_main_v48 (F := Ideal) x0 x1 x2 x3 x4 x5 x6 x7 x8 x9 x10 x11 x12 x13 x14 x15 (ix2 n q)
      = Cert.Spec.outRow (fun a => Read.val_main_v33 (F := Ideal) x0 x1 x2 x3 x4 x5 x6 x7 x8 x9 (ix2 n a)) (fun a => x3 (ix2 n a))
          (fun a k => x10 (ix2 a k)) (fun k => x11 (ix1 k)) (fun a k => x12 (ix2 a k)) (fun k => x13 (ix1 k))
          (fun a k => x14 (ix2 a k)) (fun k => x15 (ix1 k)) q := by
  rw [Read.val_main_v48_apply, Read.val_main_v45_apply, bias47, Ideal.addf_def, Cert.Spec.outRow]
  refine congrArg₂ (· + ·) (Finset.sum_congr rfl fun k _ => ?_) rfl
  rw [Read.val_main_v44_apply, zero2, Ideal.maximumf_def, lidx45, ridx45, h1_aux]

/-! ### An edge's message from its 33 numbers -/

private theorem lidx11 (e : Fin 3200000) (q k : Fin 16) : Read.lidx_main_v11 (ix2 e q) k = ix2 e k := funext fun a => by match a with | ⟨0, _⟩ => rfl | ⟨1, _⟩ => rfl
private theorem ridx11 (e : Fin 3200000) (q k : Fin 16) : Read.ridx_main_v11 (ix2 e q) k = ix2 k q := funext fun a => by match a with | ⟨0, _⟩ => rfl | ⟨1, _⟩ => rfl
private theorem lidx15 (e : Fin 3200000) (q : Fin 16) (k : Fin 1) : Read.lidx_main_v15 (ix2 e q) k = ix2 e k := funext fun a => by match a with | ⟨0, _⟩ => rfl | ⟨1, _⟩ => rfl
private theorem ridx15 (e : Fin 3200000) (q : Fin 16) (k : Fin 1) : Read.ridx_main_v15 (ix2 e q) k = ix2 k q := funext fun a => by match a with | ⟨0, _⟩ => rfl | ⟨1, _⟩ => rfl
private theorem lidx23 (e : Fin 3200000) (q k : Fin 16) : Read.lidx_main_v23 (ix2 e q) k = ix2 e k := funext fun a => by match a with | ⟨0, _⟩ => rfl | ⟨1, _⟩ => rfl
private theorem ridx23 (e : Fin 3200000) (q k : Fin 16) : Read.ridx_main_v23 (ix2 e q) k = ix2 k q := funext fun a => by match a with | ⟨0, _⟩ => rfl | ⟨1, _⟩ => rfl
private theorem lidx27 (e : Fin 3200000) (q k : Fin 16) : Read.lidx_main_v27 (ix2 e q) k = ix2 e k := funext fun a => by match a with | ⟨0, _⟩ => rfl | ⟨1, _⟩ => rfl
private theorem ridx27 (e : Fin 3200000) (q k : Fin 16) : Read.ridx_main_v27 (ix2 e q) k = ix2 k q := funext fun a => by match a with | ⟨0, _⟩ => rfl | ⟨1, _⟩ => rfl

/-- A bias row broadcast over the edges reads the bias at the column. -/
private theorem bias13 (x5 : (⟨S16, .f32⟩ : BufTy).Contents (Elt Ideal)) (e : Fin 3200000) (q : Fin 16) :
    Read.val_main_v13 (F := Ideal) x5 (ix2 e q) = x5 (ix1 q) := by
  rw [Read.val_main_v13_apply, Read.val_main_v12_apply]
  exact congrArg x5 (funext fun a => by match a with | ⟨0, _⟩ => rfl)
private theorem bias29 (x9 : (⟨S16, .f32⟩ : BufTy).Contents (Elt Ideal)) (e : Fin 3200000) (q : Fin 16) :
    Read.val_main_v29 (F := Ideal) x9 (ix2 e q) = x9 (ix1 q) := by
  rw [Read.val_main_v29_apply, Read.val_main_v28_apply]
  exact congrArg x9 (funext fun a => by match a with | ⟨0, _⟩ => rfl)

private theorem zero0 (i : S3200000x16.Idx) : Read.val_main_call0_v0 (F := Ideal) i = (0 : EReal) := by
  rw [Read.val_main_call0_v0_apply, Read.val_main_call0_cst_apply]
  exact Ideal.ofBits_zero_f32

/-- The pre-activation of edge e at feature k. The program adds the bias to the left contribution, then the edge
    contribution, then the right one; sums of extended reals regroup freely. -/
private theorem pre_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (e : Fin 3200000) (k : Fin 16) :
    Read.val_main_v25 (F := Ideal) x0 x1 x2 x3 x4 x5 x6 x7 (ix2 e k)
      = Cert.Spec.pre (Cert.Spec.catRow (fun a => Read.val_main_v10 (F := Ideal) x0 x1 (ix2 e a)) (fun a => Read.val_main_v22 (F := Ideal) x1 x3 (ix2 e a)) (fun a => x2 (ix2 e a)))
          (fun a k => x4 (ix2 a k)) (fun a k => x7 (ix2 a k)) (fun a k => x6 (ix2 a k)) (fun k => x5 (ix1 k)) k := by
  rw [Read.val_main_v25_apply, Read.val_main_v24_apply, Read.val_main_v14_apply, Read.val_main_v11_apply,
    Read.val_main_v15_apply, Read.val_main_v23_apply, bias13, Ideal.addf_def, Ideal.addf_def, Ideal.addf_def,
    ← Cert.Spec.pre_regroup]
  refine congrArg₂ (· + ·) (congrArg₂ (· + ·) (congrArg₂ (· + ·) (Finset.sum_congr rfl fun a _ => ?_) rfl)
    (Finset.sum_congr rfl fun a _ => ?_)) (Finset.sum_congr rfl fun a _ => ?_)
  · rw [lidx11, ridx11, Cert.Spec.catRow_left]
  · rw [lidx15, ridx15, Cert.Spec.catRow_right]
  · rw [lidx23, ridx23, Cert.Spec.catRow_mid]

/-- An edge's message at feature q is the specification's message row. -/
private theorem msg_aux (x0 : (⟨S100000x16, .f32⟩ : BufTy).Contents (Elt Ideal)) (x1 : (⟨S2x3200000, .i32⟩ : BufTy).Contents (Elt Ideal)) (x2 : (⟨S3200000x1, .f32⟩ : BufTy).Contents (Elt Ideal)) (x3 : (⟨S100000x16, .f32⟩ : BufTy).Contents (Elt Ideal)) (x4 : (⟨S16x16, .f32⟩ : BufTy).Contents (Elt Ideal)) (x5 : (⟨S16, .f32⟩ : BufTy).Contents (Elt Ideal)) (x6 : (⟨S1x16, .f32⟩ : BufTy).Contents (Elt Ideal)) (x7 : (⟨S16x16, .f32⟩ : BufTy).Contents (Elt Ideal)) (x8 : (⟨S16x16, .f32⟩ : BufTy).Contents (Elt Ideal)) (x9 : (⟨S16, .f32⟩ : BufTy).Contents (Elt Ideal)) (e : Fin 3200000) (q : Fin 16) :
    Read.val_main_v30 (F := Ideal) x0 x1 x2 x3 x4 x5 x6 x7 x8 x9 (ix2 e q)
      = Cert.Spec.msgRow (Cert.Spec.catRow (fun a => Read.val_main_v10 (F := Ideal) x0 x1 (ix2 e a)) (fun a => Read.val_main_v22 (F := Ideal) x1 x3 (ix2 e a)) (fun a => x2 (ix2 e a)))
          (fun a k => x4 (ix2 a k)) (fun a k => x7 (ix2 a k)) (fun a k => x6 (ix2 a k)) (fun k => x5 (ix1 k))
          (fun a k => x8 (ix2 a k)) (fun k => x9 (ix1 k)) q := by
  rw [Read.val_main_v30_apply, Read.val_main_v27_apply, bias29, Ideal.addf_def, Cert.Spec.msgRow]
  refine congrArg₂ (· + ·) (Finset.sum_congr rfl fun k _ => ?_) rfl
  rw [Read.val_main_v26_apply, zero0, Ideal.maximumf_def, lidx27, ridx27, pre_aux]

/-! ### The two readings, at the program's own arguments -/

/-- Edge e's message at feature q: the specification's message row of the edge's gathered left features, gathered
    right features and own feature. -/
theorem refMsg_apply (m : (ℓ : Loc nD τ sig) → Buf (Elt Ideal) ℓ) (c : Dev nD) (e : Fin 3200000) (q : Fin 16) :
    refMsg m c (ix2 e q)
      = Cert.Spec.msgRow (Cert.Spec.catRow (fun a => refLg m c (ix2 e a)) (fun a => refRg m c (ix2 e a)) (fun a => (m ((c.tc : Thread nD τ).loc main_arg2) : S3200000x1.Idx → EReal) (ix2 e a)))
          (fun a k => (m ((c.tc : Thread nD τ).loc main_arg4) : S16x16.Idx → EReal) (ix2 a k)) (fun a k => (m ((c.tc : Thread nD τ).loc main_arg7) : S16x16.Idx → EReal) (ix2 a k)) (fun a k => (m ((c.tc : Thread nD τ).loc main_arg6) : S1x16.Idx → EReal) (ix2 a k)) (fun k => (m ((c.tc : Thread nD τ).loc main_arg5) : S16.Idx → EReal) (ix1 k))
          (fun a k => (m ((c.tc : Thread nD τ).loc main_arg8) : S16x16.Idx → EReal) (ix2 a k)) (fun k => (m ((c.tc : Thread nD τ).loc main_arg9) : S16.Idx → EReal) (ix1 k)) q := by
  rw [← msg_eq m c, msg_aux, lg_eq, rg_eq]

/-- Node n's result at feature q: the specification's output row of the node's 16 message sums and its 16 features. -/
theorem res_apply (m : (ℓ : Loc nD τ sig) → Buf (Elt Ideal) ℓ) (c : Dev nD) (n : Fin 100000) (q : Fin 16) :
    Cert.ReferenceIdeal.Value.res_out0 (F := Ideal) m c (ix2 n q)
      = Cert.Spec.outRow (fun a => refAgg m c (ix2 n a)) (fun a => (m ((c.tc : Thread nD τ).loc main_arg3) : S100000x16.Idx → EReal) (ix2 n a))
          (fun a k => (m ((c.tc : Thread nD τ).loc main_arg10) : S16x16.Idx → EReal) (ix2 a k)) (fun k => (m ((c.tc : Thread nD τ).loc main_arg11) : S16.Idx → EReal) (ix1 k))
          (fun a k => (m ((c.tc : Thread nD τ).loc main_arg12) : S32x16.Idx → EReal) (ix2 a k)) (fun k => (m ((c.tc : Thread nD τ).loc main_arg13) : S16.Idx → EReal) (ix1 k))
          (fun a k => (m ((c.tc : Thread nD τ).loc main_arg14) : S16x16.Idx → EReal) (ix2 a k)) (fun k => (m ((c.tc : Thread nD τ).loc main_arg15) : S16.Idx → EReal) (ix1 k)) q := by
  show Cert.ReferenceIdeal.Value.res_main_v48 (F := Ideal) m c (ix2 n q) = _
  rw [Read.val_main_v48_eq, out_aux, agg_eq]

end Cert.ReferenceIdeal.RefVal

end
-- ==== Proof.Bridge.lean ====
/-
  The kernel program's result array and the reference's result are one function of the sixteen arguments.

  Kernel side. The run of @main names every buffer's final contents as a fold from the launch memory. Read at the
  result, it is what the second pallas_call's pipeline leaves in its output array: at node n and feature q, the output
  row of the node's 16 aggregated sums and its own 16 features (the second call's biases are the bias arguments given
  a unit leading axis, read back at (0, k)). The aggregated sums are the host's scatter-add, into zeros, of what the
  first pallas_call leaves, at the rows the index array's second row names; and what the first call leaves at edge e
  and feature q is the message row of the 33 numbers the host's three-piece concatenation holds in row e: the left
  node's gathered features, the right node's, the edge's own.

  Reference side. Its result at (n, q) is the same output row of its own scatter-add of its own messages, and its
  message at (e, q) the same message row of the same three pieces.

  The two gathers, the scatter's index column and the zeros are literally the same terms of the arguments in the two
  programs, so where the memories agree on the arguments the messages agree at every index, hence the two
  scatter-adds agree as arrays, hence the results agree at every index. No property of the gather or of the
  scatter-add is used beyond their being functions, and no finiteness of the inputs.
-/
import proofs.«178704_j60610578481378_1_alg».proof.Defs
import proofs.«178704_j60610578481378_1_alg».proof.Proof.KI.Run
import proofs.«178704_j60610578481378_1_alg».proof.Proof.KI.Host
import proofs.«178704_j60610578481378_1_alg».proof.Proof.KI.Val1
import proofs.«178704_j60610578481378_1_alg».proof.Proof.KI.Val0
import proofs.«178704_j60610578481378_1_alg».proof.Proof.Concat3
import proofs.«178704_j60610578481378_1_alg».proof.Proof.RefVal
import proofs.«178704_j60610578481378_1_alg».proof.Proof.Gen.Pre_finite_inputs
import Idealize.ShloMosaic.Lib.ValueIdx
import Idealize.ShloMosaic.Lib.Pipeline.Value
import Idealize.ShloMosaic.Lib.ValueLayout

noncomputable section

namespace Cert.Proof.Bridge

open Cert.KernelIdeal Cert.KernelIdeal.Gen Cert.KernelIdeal.Hand Cert.KernelIdeal.HandVal
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The boundary contents at the buffers the pallas_calls and the second host stretch read -/

theorem W1_arg4 (c : Dev nD) : W1 m ρ c (Proc.devRef .tc main_arg4) = m ((c : Thread nD τ).loc main_arg4) := (W1_of m ρ c main_arg4 (by decide)).trans rfl
theorem W1_arg6 (c : Dev nD) : W1 m ρ c (Proc.devRef .tc main_arg6) = m ((c : Thread nD τ).loc main_arg6) := (W1_of m ρ c main_arg6 (by decide)).trans rfl
theorem W1_arg7 (c : Dev nD) : W1 m ρ c (Proc.devRef .tc main_arg7) = m ((c : Thread nD τ).loc main_arg7) := (W1_of m ρ c main_arg7 (by decide)).trans rfl
theorem W1_arg8 (c : Dev nD) : W1 m ρ c (Proc.devRef .tc main_arg8) = m ((c : Thread nD τ).loc main_arg8) := (W1_of m ρ c main_arg8 (by decide)).trans rfl

theorem W2_arg3 (c : Dev nD) : W2 m ρ c (Proc.devRef .tc main_arg3) = m ((c : Thread nD τ).loc main_arg3) :=
  (W2_of_ne m ρ c main_arg3 (by decide)).trans <| (W1_of m ρ c main_arg3 (by decide)).trans rfl
theorem W2_arg10 (c : Dev nD) : W2 m ρ c (Proc.devRef .tc main_arg10) = m ((c : Thread nD τ).loc main_arg10) :=
  (W2_of_ne m ρ c main_arg10 (by decide)).trans <| (W1_of m ρ c main_arg10 (by decide)).trans rfl
theorem W2_arg11 (c : Dev nD) : W2 m ρ c (Proc.devRef .tc main_arg11) = m ((c : Thread nD τ).loc main_arg11) :=
  (W2_of_ne m ρ c main_arg11 (by decide)).trans <| (W1_of m ρ c main_arg11 (by decide)).trans rfl
theorem W2_arg12 (c : Dev nD) : W2 m ρ c (Proc.devRef .tc main_arg12) = m ((c : Thread nD τ).loc main_arg12) :=
  (W2_of_ne m ρ c main_arg12 (by decide)).trans <| (W1_of m ρ c main_arg12 (by decide)).trans rfl
theorem W2_arg13 (c : Dev nD) : W2 m ρ c (Proc.devRef .tc main_arg13) = m ((c : Thread nD τ).loc main_arg13) :=
  (W2_of_ne m ρ c main_arg13 (by decide)).trans <| (W1_of m ρ c main_arg13 (by decide)).trans rfl
theorem W2_arg14 (c : Dev nD) : W2 m ρ c (Proc.devRef .tc main_arg14) = m ((c : Thread nD τ).loc main_arg14) :=
  (W2_of_ne m ρ c main_arg14 (by decide)).trans <| (W1_of m ρ c main_arg14 (by decide)).trans rfl
theorem W2_arg15 (c : Dev nD) : W2 m ρ c (Proc.devRef .tc main_arg15) = m ((c : Thread nD τ).loc main_arg15) :=
  (W2_of_ne m ρ c main_arg15 (by decide)).trans <| (W1_of m ρ c main_arg15 (by decide)).trans rfl

theorem W3_arg3 (c : Dev nD) : W3 m ρ c (Proc.devRef .tc main_arg3) = m ((c : Thread nD τ).loc main_arg3) := (W3_of m ρ c main_arg3 (by decide)).trans (W2_arg3 m ρ c)
theorem W3_arg10 (c : Dev nD) : W3 m ρ c (Proc.devRef .tc main_arg10) = m ((c : Thread nD τ).loc main_arg10) := (W3_of m ρ c main_arg10 (by decide)).trans (W2_arg10 m ρ c)
theorem W3_arg12 (c : Dev nD) : W3 m ρ c (Proc.devRef .tc main_arg12) = m ((c : Thread nD τ).loc main_arg12) := (W3_of m ρ c main_arg12 (by decide)).trans (W2_arg12 m ρ c)
theorem W3_arg14 (c : Dev nD) : W3 m ρ c (Proc.devRef .tc main_arg14) = m ((c : Thread nD τ).loc main_arg14) := (W3_of m ρ c main_arg14 (by decide)).trans (W2_arg14 m ρ c)

/-- The second host stretch reads the scatter's row indices where the first stretch left them. -/
theorem W2_v3 (c : Dev nD) : W2 m ρ c (Proc.devRef .tc main_v3) = W1 m ρ c (Proc.devRef .tc main_v3) := W2_of_ne m ρ c main_v3 (by decide)
/-- and the messages where the first pallas_call left them. -/
theorem W2_v21 (c : Dev nD) : W2 m ρ c (Proc.devRef .tc main_v21) = (dat0 (V1 m ρ) c).arrAt 7 cfg0.N := W2_arr m ρ c 7

/-! ## What the second pallas_call reads -/

/-- The aggregated sums the second pallas_call reads: the first pallas_call's result rows added, into zeros, at the
    rows the index array's second row names. -/
def kAgg (c : Dev nD) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0
      (shapeCast _ (extractStridedSlice S1x3200000 ![1, 0] (m ((c : Thread nD τ).loc main_arg1)) slices_S2x3200000_S1x3200000_1_0) shapeCasts_S1x3200000_S3200000))
    ((dat0 (V1 m ρ) c).arrAt 7 cfg0.N : FVec Ideal S3200000x16 .f32)

theorem v24_eq (c : Dev nD) : (V3 m ρ c main_v24 : FVec Ideal S100000x16 .f32) = kAgg m ρ c := by
  refine (host1_v24 (W2 m ρ c)).trans ?_
  rw [W2_v3 m ρ c, W2_v21 m ρ c]
  unfold kAgg
  rw [← host0_v3 (W0 m ρ c)]

theorem v25_eq (c : Dev nD) : (V3 m ρ c main_v25 : (⟨S1x16, .f32⟩ : BufTy).Contents (Elt Ideal))
    = shapeCast S1x16 (m ((c : Thread nD τ).loc main_arg11) : (⟨S16, .f32⟩ : BufTy).Contents (Elt Ideal)) shapeCasts_S16_S1x16 := by
  refine (host1_v25 (W2 m ρ c)).trans ?_
  rw [W2_arg11 m ρ c]
theorem v26_eq (c : Dev nD) : (V3 m ρ c main_v26 : (⟨S1x16, .f32⟩ : BufTy).Contents (Elt Ideal))
    = shapeCast S1x16 (m ((c : Thread nD τ).loc main_arg13) : (⟨S16, .f32⟩ : BufTy).Contents (Elt Ideal)) shapeCasts_S16_S1x16 := by
  refine (host1_v26 (W2 m ρ c)).trans ?_
  rw [W2_arg13 m ρ c]
theorem v27_eq (c : Dev nD) : (V3 m ρ c main_v27 : (⟨S1x16, .f32⟩ : BufTy).Contents (Elt Ideal))
    = shapeCast S1x16 (m ((c : Thread nD τ).loc main_arg15) : (⟨S16, .f32⟩ : BufTy).Contents (Elt Ideal)) shapeCasts_S16_S1x16 := by
  refine (host1_v27 (W2 m ρ c)).trans ?_
  rw [W2_arg15 m ρ c]

/-- A length-16 vector given a unit leading axis, read at (0, k): the vector at k. -/
theorem row_of_vec (x : (⟨S16, .f32⟩ : BufTy).Contents (Elt Ideal)) (k : Fin 16) :
    (shapeCast S1x16 x shapeCasts_S16_S1x16 : S1x16.Idx → EReal) (ix2 0 k) = (x : S16.Idx → EReal) (ix1 k) := by
  refine shapeCast_apply x shapeCasts_S16_S1x16 (ix2 0 k) (ix1 k) ?_
  rw [Shape.rowMajor_val_two]
  show 0 * 16 + k.val = _
  simp [Shape.rowMajor]

/-! ## The kernel program's two arrays, read at an index over the launch memory -/

/-- What the first pallas_call leaves, at edge `e` and feature `q`: the message row of the edge's 33 numbers — its
    left node's gathered features, its right node's, its own — under the six weight and bias arguments. -/
theorem kMsg_at (c : Dev nD) (e : Fin 3200000) (q : Fin 16) :
    ((dat0 (V1 m ρ) c).arrAt 7 cfg0.N : S3200000x16.Idx → EReal) (ix2 e q)
      = Cert.Spec.msgRow
          (Cert.Spec.catRow (fun a => (kLg (W0 m ρ c) : S3200000x16.Idx → EReal) (ix2 e a))
            (fun a => (kRg (W0 m ρ c) : S3200000x16.Idx → EReal) (ix2 e a))
            (fun a => (m ((c : Thread nD τ).loc main_arg2) : S3200000x1.Idx → EReal) (ix2 e a)))
          (fun a k => (m ((c : Thread nD τ).loc main_arg4) : S16x16.Idx → EReal) (ix2 a k))
          (fun a k => (m ((c : Thread nD τ).loc main_arg7) : S16x16.Idx → EReal) (ix2 a k))
          (fun a k => (m ((c : Thread nD τ).loc main_arg6) : S1x16.Idx → EReal) (ix2 a k))
          (fun k => (m ((c : Thread nD τ).loc main_arg5) : S16.Idx → EReal) (ix1 k))
          (fun a k => (m ((c : Thread nD τ).loc main_arg8) : S16x16.Idx → EReal) (ix2 a k))
          (fun k => (m ((c : Thread nD τ).loc main_arg9) : S16.Idx → EReal) (ix1 k)) q := by
  rw [msgs_arr (V1 m ρ) c, msgArr_at]
  have e18 : (V1 m ρ c main_v18 : S3200000x33.Idx → EReal) = _ := host0_v18 (W0 m ρ c)
  have e19 : (V1 m ρ c main_v19 : S1x16.Idx → EReal) = _ := host0_v19 (W0 m ρ c)
  have e20 : (V1 m ρ c main_v20 : S1x16.Idx → EReal) = _ := host0_v20 (W0 m ρ c)
  have e4 : (V1 m ρ c main_arg4 : S16x16.Idx → EReal) = m ((c : Thread nD τ).loc main_arg4) := W1_arg4 m ρ c
  have e6 : (V1 m ρ c main_arg6 : S1x16.Idx → EReal) = m ((c : Thread nD τ).loc main_arg6) := W1_arg6 m ρ c
  have e7 : (V1 m ρ c main_arg7 : S16x16.Idx → EReal) = m ((c : Thread nD τ).loc main_arg7) := W1_arg7 m ρ c
  have e8 : (V1 m ρ c main_arg8 : S16x16.Idx → EReal) = m ((c : Thread nD τ).loc main_arg8) := W1_arg8 m ρ c
  rw [e18, e19, e20, e4, e6, e7, e8]
  simp only [Cert.Concat3.concat3_at]
  have r5 : ∀ k : Fin 16, (shapeCast S1x16 (W0 m ρ c (Proc.devRef .tc main_arg5)) shapeCasts_S16_S1x16 : S1x16.Idx → EReal) (ix2 0 k)
      = (m ((c : Thread nD τ).loc main_arg5) : S16.Idx → EReal) (ix1 k) := fun k => row_of_vec _ k
  have r9 : ∀ k : Fin 16, (shapeCast S1x16 (W0 m ρ c (Proc.devRef .tc main_arg9)) shapeCasts_S16_S1x16 : S1x16.Idx → EReal) (ix2 0 k)
      = (m ((c : Thread nD τ).loc main_arg9) : S16.Idx → EReal) (ix1 k) := fun k => row_of_vec _ k
  simp only [r5, r9]

/-- The result array, at node `n` and feature `q`: the output row of the node's 16 aggregated sums and its own 16
    features under the six weight and bias arguments. -/
theorem kernel_result_at (c : Dev nD) (n : Fin 100000) (q : Fin 16) :
    (W4 m ρ c (Proc.devRef .tc main_v28) : S100000x16.Idx → EReal) (ix2 n q)
      = Cert.Spec.outRow (fun a => (kAgg m ρ c : S100000x16.Idx → EReal) (ix2 n a))
          (fun a => (m ((c : Thread nD τ).loc main_arg3) : S100000x16.Idx → EReal) (ix2 n a))
          (fun a k => (m ((c : Thread nD τ).loc main_arg10) : S16x16.Idx → EReal) (ix2 a k))
          (fun k => (m ((c : Thread nD τ).loc main_arg11) : S16.Idx → EReal) (ix1 k))
          (fun a k => (m ((c : Thread nD τ).loc main_arg12) : S32x16.Idx → EReal) (ix2 a k))
          (fun k => (m ((c : Thread nD τ).loc main_arg13) : S16.Idx → EReal) (ix1 k))
          (fun a k => (m ((c : Thread nD τ).loc main_arg14) : S16x16.Idx → EReal) (ix2 a k))
          (fun k => (m ((c : Thread nD τ).loc main_arg15) : S16.Idx → EReal) (ix1 k)) q := by
  rw [W4_result m ρ c, out_arr (V3 m ρ) c, outArr_at]
  have e24 : (V3 m ρ c main_v24 : S100000x16.Idx → EReal) = kAgg m ρ c := v24_eq m ρ c
  have e25 : (V3 m ρ c main_v25 : S1x16.Idx → EReal) = _ := v25_eq m ρ c
  have e26 : (V3 m ρ c main_v26 : S1x16.Idx → EReal) = _ := v26_eq m ρ c
  have e27 : (V3 m ρ c main_v27 : S1x16.Idx → EReal) = _ := v27_eq m ρ c
  have e3 : (V3 m ρ c main_arg3 : S100000x16.Idx → EReal) = m ((c : Thread nD τ).loc main_arg3) := W3_arg3 m ρ c
  have e10 : (V3 m ρ c main_arg10 : S16x16.Idx → EReal) = m ((c : Thread nD τ).loc main_arg10) := W3_arg10 m ρ c
  have e12 : (V3 m ρ c main_arg12 : S32x16.Idx → EReal) = m ((c : Thread nD τ).loc main_arg12) := W3_arg12 m ρ c
  have e14 : (V3 m ρ c main_arg14 : S16x16.Idx → EReal) = m ((c : Thread nD τ).loc main_arg14) := W3_arg14 m ρ c
  rw [e24, e25, e26, e27, e3, e10, e12, e14]
  have r11 : ∀ k : Fin 16, (shapeCast S1x16 (m ((c : Thread nD τ).loc main_arg11)) shapeCasts_S16_S1x16 : S1x16.Idx → EReal) (ix2 0 k)
      = (m ((c : Thread nD τ).loc main_arg11) : S16.Idx → EReal) (ix1 k) := fun k => row_of_vec _ k
  have r13 : ∀ k : Fin 16, (shapeCast S1x16 (m ((c : Thread nD τ).loc main_arg13)) shapeCasts_S16_S1x16 : S1x16.Idx → EReal) (ix2 0 k)
      = (m ((c : Thread nD τ).loc main_arg13) : S16.Idx → EReal) (ix1 k) := fun k => row_of_vec _ k
  have r15 : ∀ k : Fin 16, (shapeCast S1x16 (m ((c : Thread nD τ).loc main_arg15)) shapeCasts_S16_S1x16 : S1x16.Idx → EReal) (ix2 0 k)
      = (m ((c : Thread nD τ).loc main_arg15) : S16.Idx → EReal) (ix1 k) := fun k => row_of_vec _ k
  simp only [r11, r13, r15]

/-! ## The two programs' results are one function of the arguments -/

section Cross

variable (m' : (ℓ : Loc Cert.ReferenceIdeal.nD Cert.ReferenceIdeal.τ Cert.ReferenceIdeal.sig) → Buf (Elt Ideal) ℓ)

/-- The two memories hold the same sixteen argument arrays on core `c`. -/
def Agree (c : Dev nD) : Prop :=
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)

/-- The reference's messages are what the first pallas_call leaves: at every edge and feature both are the message row
    of the same 33 numbers (the two gathers are one function of the same arguments) under the same weights. -/
theorem msg_eq (c : Dev nD) (h : Agree m m' c) :
    Cert.ReferenceIdeal.RefVal.refMsg m' c = ((dat0 (V1 m ρ) c).arrAt 7 cfg0.N : FVec Ideal S3200000x16 .f32) := by
  obtain ⟨h0, h1, h2, h3, h4, h5, h6, h7, h8, h9, -⟩ := h
  have hl : Cert.ReferenceIdeal.RefVal.refLg m' c = (kLg (W0 m ρ c) : FVec Ideal S3200000x16 .f32) := by
    unfold Cert.ReferenceIdeal.RefVal.refLg kLg kIdx0
    rw [h0, h1]
    rfl
  have hr : Cert.ReferenceIdeal.RefVal.refRg m' c = (kRg (W0 m ρ c) : FVec Ideal S3200000x16 .f32) := by
    unfold Cert.ReferenceIdeal.RefVal.refRg kRg kIdx1
    rw [h3, h1]
    rfl
  funext i
  obtain ⟨e, q, rfl⟩ : ∃ (e : Fin 3200000) (q : Fin 16), i = ix2 e q := ⟨i 0, i 1, eq_ix2 i⟩
  rw [Cert.ReferenceIdeal.RefVal.refMsg_apply, kMsg_at, hl, hr, h2, h4, h5, h6, h7, h8, h9]

/-- So the two programs add the same rows into the same rows of zeros. -/
theorem agg_eq (c : Dev nD) (h : Agree m m' c) : Cert.ReferenceIdeal.RefVal.refAgg m' c = kAgg m ρ c := by
  unfold Cert.ReferenceIdeal.RefVal.refAgg kAgg Cert.ReferenceIdeal.RefVal.refZero Cert.ReferenceIdeal.RefVal.refIdx
  rw [msg_eq m ρ m' c h, h.2.1]
  rfl

/-- The reference's result is the kernel program's result array. -/
theorem result_eq (c : Dev nD) (h : Agree m m' c) :
    (Cert.ReferenceIdeal.Value.res_main_v48 (F := Ideal) m' c : S100000x16.Idx → EReal)
      = (W4 m ρ c (Proc.devRef .tc main_v28) : S100000x16.Idx → EReal) := by
  funext i
  obtain ⟨n, q, rfl⟩ : ∃ (n : Fin 100000) (q : Fin 16), i = ix2 n q := ⟨i 0, i 1, eq_ix2 i⟩
  rw [kernel_result_at]
  refine (Cert.ReferenceIdeal.RefVal.res_apply m' c n q).trans ?_
  rw [agg_eq m ρ m' c h]
  obtain ⟨-, -, -, h3, -, -, -, -, -, -, h10, h11, h12, h13, h14, h15⟩ := h
  rw [h3, h10, h11, h12, h13, h14, h15]

end Cross

/-! ## The algebraic claim -/

theorem algebraic : Cert.algebraic_KernelIdeal_ReferenceIdeal := by
  intro m ρ m' ρ' _ hagree
  refine ⟨fun c => W4 m ρ c (Proc.devRef .tc main_v28), ?_, ?_⟩
  · exact (θ_run Cert.KernelIdeal.defs _ _).mono (fun _ h c => ⟨h c _ (mem_uc main_v28 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩)
      (run_all m ρ)
  · exact (θ_run Cert.ReferenceIdeal.defs _ _).mono (fun _ h c => ⟨(h c).1.trans (result_eq m ρ m' c (hagree c)), (h c).2⟩)
      (Cert.ReferenceIdeal.Value.run (F := Ideal) m' ρ')

end Cert.Proof.Bridge

end
-- ==== Proof.lean ====
/-
  The five claims of this certificate.

  The kernel program gathers each edge's two end nodes' features on the host, runs a first pallas_call over blocks of
  3200 edges (the message of an edge: an affine map of the rectified sum of three affine maps of its row), sums the
  messages into their right nodes on the host, and runs a second pallas_call over blocks of 2000 nodes (the output map:
  an affine map, a concatenation with the node's own features, and a two-layer map). The reference does the same with
  whole-array host operations. Over the extended reals the two compute one function: every matrix product is the
  same finite sum, a change of float format is the identity, and the two groupings of an edge's pre-activation agree
  because addition of extended reals is commutative and associative. No finiteness of the inputs is used.

  Frames: each of the two kernel programs runs as four segments — host stretch, pallas_call, host stretch, pallas_call —
  and ends with every unscoped buffer at a named valuation (`Hand.run_all`), which at an argument is the launch
  contents. The reference's frame is its run with the result dropped. `preserves` has no entry.
-/
import proofs.«178704_j60610578481378_1_alg».proof.Defs
import proofs.«178704_j60610578481378_1_alg».proof.Proof.Gen.Kernel
import proofs.«178704_j60610578481378_1_alg».proof.Proof.Gen.KernelIdeal
import proofs.«178704_j60610578481378_1_alg».proof.Proof.Gen.ReferenceIdeal
import proofs.«178704_j60610578481378_1_alg».proof.Proof.Gen.Pre_finite_inputs
import proofs.«178704_j60610578481378_1_alg».proof.Proof.Gen.ReferenceIdeal.Run
import proofs.«178704_j60610578481378_1_alg».proof.Proof.Gen.ReferenceIdeal.Read
import proofs.«178704_j60610578481378_1_alg».proof.Proof.K.Run
import proofs.«178704_j60610578481378_1_alg».proof.Proof.KI.Run
import proofs.«178704_j60610578481378_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
